-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x360 : Shape := ⟨2, ![16384, 360]⟩
abbrev S512x512 : Shape := ⟨2, ![512, 512]⟩
abbrev S360x512 : Shape := ⟨2, ![360, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S16384x360 : S_.BroadcastsInDim S16384x360 (![] : Fin 0 → Fin S16384x360.rank)
  reducesTo_S16384x360_S_d0_1 : S16384x360.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S360x512 : S_.BroadcastsInDim S360x512 (![] : Fin 0 → Fin S360x512.rank)
  reducesTo_S360x512_S_d0_1 : S360x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S512 .f32) (main_arg8 : FVec F S512x1 .f32) (main_arg9 : FVec F S1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1 .f32 := Host.absf main_arg8
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S512x512 .f32) (main_arg5 : FVec F S512 .f32) (main_arg6 : FVec F S512x512 .f32) (main_arg7 : FVec F S512 .f32) (main_arg8 : FVec F S512x1 .f32) (main_arg9 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x360 .f32) (main_arg1 : FVec F S512x512 .f32) (main_arg2 : FVec F S360x512 .f32) (main_arg3 : FVec F S512 .f32) (main_arg4 : FVec F S512x512 .f32) (main_arg5 : FVec F S512 .f32) (main_arg6 : FVec F S512x512 .f32) (main_arg7 : FVec F S512 .f32) (main_arg8 : FVec F S512x1 .f32) (main_arg9 : FVec F S1 .f32) : IVec S_ 1 :=
  let main_v0 : FVec F S16384x360 .f32 := Host.absf main_arg0
  let main_cst : FVec F S_ .f32 := constant S_ .f32 0x7F800000#32
  let main_v1 : FVec F S16384x360 .f32 := broadcastInDim S16384x360 ![] bcast_S_S16384x360 main_cst
  let main_v2 : IVec S16384x360 1 := cmpf .olt main_v0 main_v1
  let main_c : IVec S_ 1 := constantI S_ 1 1#1
  let main_v3 : IVec S_ 1 := (fun x v => Host.reduce IntOp.andi x v reducesTo_S16384x360_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S360x512 .f32 := Host.absf main_arg2
  let main_cst_2 : FVec F S_ .f32 := constant S_ .f32 0x7F800000#32
  let main_v10 : FVec F S360x512 .f32 := broadcastInDim S360x512 ![] bcast_S_S360x512 main_cst_2
  let main_v11 : IVec S360x512 1 := cmpf .olt main_v9 main_v10
  let main_c_3 : IVec S_ 1 := constantI S_ 1 1#1
  let main_v12 : IVec S_ 1 := (fun x v => Host.reduce IntOp.andi x v reducesTo_S360x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S16384x360 : Shape := ⟨2, ![16384, 360]⟩
abbrev S512x512 : Shape := ⟨2, ![512, 512]⟩
abbrev S360x512 : Shape := ⟨2, ![360, 512]⟩
abbrev S512 : Shape := ⟨1, ![512]⟩
abbrev S512x1 : Shape := ⟨2, ![512, 1]⟩
abbrev S1 : Shape := ⟨1, ![1]⟩
abbrev S360x16384 : Shape := ⟨2, ![360, 16384]⟩
abbrev S1x512 : Shape := ⟨2, ![1, 512]⟩
abbrev S1x16384 : Shape := ⟨2, ![1, 16384]⟩
abbrev S16384x512 : Shape := ⟨2, ![16384, 512]⟩
abbrev S16384x1 : Shape := ⟨2, ![16384, 1]⟩
abbrev S360x1024 : Shape := ⟨2, ![360, 1024]⟩
abbrev S1x1024 : Shape := ⟨2, ![1, 1024]⟩
abbrev S1024x512 : Shape := ⟨2, ![1024, 512]⟩
abbrev S1x1 : Shape := ⟨2, ![1, 1]⟩

abbrev nBuf : Space → Nat
  | .hbm => 16
  | .vmem => 17
  | .smem => 0
  | _ => 0

abbrev bufTy : (tb : Table) → Fin (tcTables nBuf tb) → BufTy
  | .hbm, ⟨0, _⟩ => ⟨S16384x360, .f32⟩
  | .hbm, ⟨1, _⟩ => ⟨S512x512, .f32⟩
  | .hbm, ⟨2, _⟩ => ⟨S360x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S360x16384, .f32⟩
  | .hbm, ⟨11, _⟩ => ⟨S1x512, .f32⟩
  | .hbm, ⟨12, _⟩ => ⟨S1x16384, .f32⟩
  | .hbm, ⟨13, _⟩ => ⟨S16384x512, .f32⟩
  | .hbm, ⟨14, _⟩ => ⟨S16384x512, .f32⟩
  | .hbm, ⟨15, _⟩ => ⟨S16384x1, .f32⟩
  | .local _ .vmem, ⟨0, _⟩ => ⟨S360x1024, .f32⟩
  | .local _ .vmem, ⟨1, _⟩ => ⟨S360x1024, .f32⟩
  | .local _ .vmem, ⟨2, _⟩ => ⟨S512x512, .f32⟩
  | .local _ .vmem, ⟨3, _⟩ => ⟨S360x512, .f32⟩
  | .local _ .vmem, ⟨4, _⟩ => ⟨S512, .f32⟩
  | .local _ .vmem, ⟨5, _⟩ => ⟨S512x512, .f32⟩
  | .local _ .vmem, ⟨6, _⟩ => ⟨S512, .f32⟩
  | .local _ .vmem, ⟨7, _⟩ => ⟨S512x512, .f32⟩
  | .local _ .vmem, ⟨8, _⟩ => ⟨S512, .f32⟩
  | .local _ .vmem, ⟨9, _⟩ => ⟨S1x512, .f32⟩
  | .local _ .vmem, ⟨10, _⟩ => ⟨S1, .f32⟩
  | .local _ .vmem, ⟨11, _⟩ => ⟨S1x1024, .f32⟩
  | .local _ .vmem, ⟨12, _⟩ => ⟨S1x1024, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | _, _ => ⟨S16384x360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2_0 : Ref sig .tc := ⟨.hbm, 12, rfl⟩
abbrev main_v0_1 : Ref sig .tc := ⟨.hbm, 13, rfl⟩
abbrev main_v0_2 : Ref sig .tc := ⟨.hbm, 14, rfl⟩
abbrev main_v0_0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S360x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S360x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S16384x360_S360x16384_1_0 : S16384x360.Transposes [1, 0] S360x16384
  transposes_S512x1_S1x512_1_0 : S512x1.Transposes [1, 0] S1x512
  transposes_S1x16384_S16384x1_1_0 : S1x16384.Transposes [1, 0] S16384x1
  inb_S512x512_S512x512_0_0 : ∀ a, (![0, 0] : Fin 2 → Nat) a + S512x512.size a ≤ S512x512.size a
  h_S512x512 : 0 < S512x512.numel
  inb_S360x512_S360x512_0_0 : ∀ a, (![0, 0] : Fin 2 → Nat) a + S360x512.size a ≤ S360x512.size a
  h_S360x512 : 0 < S360x512.numel
  inb_S512_S512_0 : ∀ a, (![0] : Fin 1 → Nat) a + S512.size a ≤ S512.size a
  h_S512 : 0 < S512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1_S1_0 : ∀ a, (![0] : Fin 1 → Nat) a + S1.size a ≤ S1.size a
  h_S1 : 0 < S1.numel
  inb_S360x1024_S360x512_0_0 : ∀ a, (![0, 0] : Fin 2 → Nat) a + S360x512.size a ≤ S360x1024.size a
  shapeCasts_S360x512_S360x512 : S360x512.ShapeCasts S360x512
  shapeCasts_S512_S1x512 : S512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  inb_S1024x512_S512x512_0_0 : ∀ a, (![0, 0] : Fin 2 → Nat) a + S512x512.size a ≤ S1024x512.size a
  shapeCasts_S1_S1x1 : S1.ShapeCasts S1x1
  broadcasts_S1x1_S1x512 : S1x1.Broadcasts S1x512
  inb_S1x1024_S1x512_0_0 : ∀ a, (![0, 0] : Fin 2 → Nat) a + S1x512.size a ≤ S1x1024.size a
  inb_S360x1024_S360x512_0_512 : ∀ a, (![0, 512] : Fin 2 → Nat) a + S360x512.size a ≤ S360x1024.size a
  inb_S1024x512_S512x512_512_0 : ∀ a, (![512, 0] : Fin 2 → Nat) a + S512x512.size a ≤ S1024x512.size a
  inb_S1x1024_S1x512_0_512 : ∀ a, (![0, 512] : Fin 2 → Nat) a + S1x512.size a ≤ S1x1024.size a
  dot_S360x512_S360x512_S512x512_0_0_1_1_n_n_wf : DotDims.WF S360x512 S360x512 S512x512 [0] [0] [1] [1] [] []
  dot_S512x512_S512x512_S512x512_1_0_0_1_n_n_wf : DotDims.WF S512x512 S512x512 S512x512 [1] [0] [0] [1] [] []
  dot_S512x512_S512x512_S512x512_1_1_0_0_n_n_wf : DotDims.WF S512x512 S512x512 S512x512 [1] [1] [0] [0] [] []
  dot_S1x512_S512x512_S1x512_1_1_0_0_n_n_wf : DotDims.WF S1x512 S512x512 S1x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S360x1024.size a ≤ S360x16384.size a
  hwx0_0 : ∀ i : grid0.Coords, EltTy.bits .f32 = 32 ∨ (Rect.block (s := S360x16384) S360x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S360x512.size a ≤ S360x512.size a
  hwx0_2 : ∀ i : grid0.Coords, EltTy.bits .f32 = 32 ∨ (Rect.block (s := S360x512) S360x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x16384.size a
  hwx0_10 : ∀ i : grid0.Coords, EltTy.bits .f32 = 32 ∨ (Rect.block (s := S1x16384) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S16384x512.size a
  hwx0_11 : ∀ i : grid0.Coords, EltTy.bits .f32 = 32 ∨ (Rect.block (s := S16384x512) S1024x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x512.size a ≤ S16384x512.size a
  hwx0_12 : ∀ i : grid0.Coords, EltTy.bits .f32 = 32 ∨ (Rect.block (s := S16384x512) S1024x512.size (cc0_transform_12 i) (hinb0_12 i)).WholeWords (EltTy.packing .f32)

variable [Facts₀]

def dot_S360x512_S360x512_S512x512_0_0_1_1_n_n : DotDims S360x512 S360x512 S512x512 where
  lhsContracting := [0]
  rhsContracting := [0]
  lhsNonContracting := [1]
  rhsNonContracting := [1]
  lhsBatch := []
  rhsBatch := []
  wf := dot_S360x512_S360x512_S512x512_0_0_1_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S1x512_S512x512_S1x512_1_1_0_0_n_n : DotDims S1x512 S512x512 S1x512 where
  lhsContracting := [1]
  rhsContracting := [1]
  lhsNonContracting := [0]
  rhsNonContracting := [0]
  lhsBatch := []
  rhsBatch := []
  wf := dot_S1x512_S512x512_S1x512_1_1_0_0_n_n_wf

abbrev win0_0 : Pipeline.Window sig grid0 :=
  Pipeline.Window.ofSpec (Memref.whole main_call0_v0) S360x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S360x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v1) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v2_0) S1x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S1024x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_2) S1024x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x360 : Shape := ⟨2, ![16384, 360]⟩
abbrev S512x512 : Shape := ⟨2, ![512, 512]⟩
abbrev S360x512 : Shape := ⟨2, ![360, 512]⟩
abbrev S512 : Shape := ⟨1, ![512]⟩
abbrev S512x1 : Shape := ⟨2, ![512, 1]⟩
abbrev S1 : Shape := ⟨1, ![1]⟩
abbrev S16384x512 : Shape := ⟨2, ![16384, 512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S1x1 : Shape := ⟨2, ![1, 1]⟩

abbrev nBuf : Space → Nat
  | .hbm => 102
  | .vmem => 0
  | .smem => 0
  | _ => 0

abbrev bufTy : (tb : Table) → Fin (tcTables nBuf tb) → BufTy
  | .hbm, ⟨0, _⟩ => ⟨S16384x360, .f32⟩
  | .hbm, ⟨1, _⟩ => ⟨S512x512, .f32⟩
  | .hbm, ⟨2, _⟩ => ⟨S360x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S16384x512, .f32⟩
  | .hbm, ⟨11, _⟩ => ⟨S1x512, .f32⟩
  | .hbm, ⟨12, _⟩ => ⟨S16384x512, .f32⟩
  | .hbm, ⟨13, _⟩ => ⟨S16384x512, .f32⟩
  | .hbm, ⟨14, _⟩ => ⟨S_, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S1x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S1x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S512x512, .f32⟩
  | .hbm, ⟨32, _⟩ => ⟨S16384x512, .f32⟩
  | .hbm, ⟨33, _⟩ => ⟨S_, .f32⟩
  | .hbm, ⟨34, _⟩ => ⟨S512, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S1x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S16384x512, .f32⟩
  | .hbm, ⟨46, _⟩ => ⟨S16384x512, .f32⟩
  | .hbm, ⟨47, _⟩ => ⟨S_, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S16384x1, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S_, .f32⟩
  | .hbm, ⟨64, _⟩ => ⟨S512x512, .f32⟩
  | .hbm, ⟨65, _⟩ => ⟨S512x512, .f32⟩
  | .hbm, ⟨66, _⟩ => ⟨S512x512, .f32⟩
  | .hbm, ⟨67, _⟩ => ⟨S16384x512, .f32⟩
  | .hbm, ⟨68, _⟩ => ⟨S_, .f32⟩
  | .hbm, ⟨69, _⟩ => ⟨S512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S1x512, .f32⟩
  | .hbm, ⟨74, _⟩ => ⟨S16384x512, .f32⟩
  | .hbm, ⟨75, _⟩ => ⟨S16384x512, .f32⟩
  | .hbm, ⟨76, _⟩ => ⟨S16384x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S16384x512, .f32⟩
  | .hbm, ⟨81, _⟩ => ⟨S16384x512, .f32⟩
  | .hbm, ⟨82, _⟩ => ⟨S_, .f32⟩
  | .hbm, ⟨83, _⟩ => ⟨S16384, .f32⟩
  | .hbm, ⟨84, _⟩ => ⟨S_, .f32⟩
  | .hbm, ⟨85, _⟩ => ⟨S16384, .f32⟩
  | .hbm, ⟨86, _⟩ => ⟨S16384, .f32⟩
  | .hbm, ⟨87, _⟩ => ⟨S16384x1, .f32⟩
  | .hbm, ⟨88, _⟩ => ⟨S16384x512, .f32⟩
  | .hbm, ⟨89, _⟩ => ⟨S16384x512, .f32⟩
  | .hbm, ⟨90, _⟩ => ⟨S16384x512, .f32⟩
  | .hbm, ⟨91, _⟩ => ⟨S_, .f32⟩
  | .hbm, ⟨92, _⟩ => ⟨S16384, .f32⟩
  | .hbm, ⟨93, _⟩ => ⟨S16384x1, .f32⟩
  | .hbm, ⟨94, _⟩ => ⟨S16384x512, .f32⟩
  | .hbm, ⟨95, _⟩ => ⟨S16384x512, .f32⟩
  | .hbm, ⟨96, _⟩ => ⟨S16384x512, .f32⟩
  | .hbm, ⟨97, _⟩ => ⟨S16384x512, .f32⟩
  | .hbm, ⟨98, _⟩ => ⟨S16384x1, .f32⟩
  | .hbm, ⟨99, _⟩ => ⟨S1x1, .f32⟩
  | .hbm, ⟨100, _⟩ => ⟨S16384x1, .f32⟩
  | .hbm, ⟨101, _⟩ => ⟨S16384x1, .f32⟩
  | _, _ => ⟨S16384x360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_cst_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_8 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S512x512_S512x512_1_0 : S512x512.Transposes [1, 0] S512x512
  reducesTo_S16384x512_S512_d0 : S16384x512.ReducesTo [0] S512
  h_S_ : 0 < S_.numel
  bcast_S_S512 : S_.BroadcastsInDim S512 (![] : Fin 0 → Fin S512.rank)
  reducesTo_S16384x512_S16384_d1 : S16384x512.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  bcast_S_S512x512 : S_.BroadcastsInDim S512x512 (![] : Fin 0 → Fin S512x512.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x360_S360x512_S16384x512_1_0_0_1_n_n_wf : DotDims.WF S16384x360 S360x512 S16384x512 [1] [0] [0] [1] [] []
  dot_S16384x512_S512x512_S16384x512_1_0_0_1_n_n_wf : DotDims.WF S16384x512 S512x512 S16384x512 [1] [0] [0] [1] [] []
  dot_S16384x512_S512x1_S16384x1_1_0_0_1_n_n_wf : DotDims.WF S16384x512 S512x1 S16384x1 [1] [0] [0] [1] [] []

variable [Facts₀]

def dot_S16384x360_S360x512_S16384x512_1_0_0_1_n_n : DotDims S16384x360 S360x512 S16384x512 where
  lhsContracting := [1]
  rhsContracting := [0]
  lhsNonContracting := [0]
  rhsNonContracting := [1]
  lhsBatch := []
  rhsBatch := []
  wf := dot_S16384x360_S360x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf

class Facts : Prop extends Facts₀ where

variable [Facts]
-- ==== Proof.Spec.lean ====
/-
  The mathematics both programs compute, stated once over plain coordinate functions into the extended reals.

  A row of the input (360 numbers) goes through three dense layers, each followed by max(·, 0); the resulting
  hidden row h (512 numbers) is scored against the 512 memory rows K j, and three things are produced:
    • "pp": h · Σ_j softmax(score)_j · K j           (read)
    • "pn": h · Σ_j softmax(−score)_j · K j          (un-read)
    • "pred": Σ_c Wd c · h c + bd.
  The kernel normalises with exp(score) directly (and its reciprocal for the negated scores), and multiplies the
  normaliser into h first; the reference subtracts the row maximum before exponentiating and divides each weight.
  `…K` below are the kernel's arrangements, `…R` the reference's; over finite inputs they agree (Algebra.lean).
-/
import Idealize.ShloMosaic.PureOps.Ideal
import Idealize.ShloMosaic.Lib.ValueIdx

noncomputable section

namespace Cert.Spec

open Idealize.ShloMosaic Idealize.ShloMosaic.ValueIdx

/-- An extended real that is a real number. -/
def IsReal (a : EReal) : Prop := ∃ r : ℝ, a = (r : EReal)

/-- One dense layer and its rectifier: max(Σ_k a k · W k c + b c, 0). -/
def layer {n : Nat} (a : Fin n → EReal) (W : Fin n → Fin 512 → EReal) (b : Fin 512 → EReal) (c : Fin 512) : EReal :=
  max ((∑ k : Fin n, a k * W k c) + b c) 0

/-- The hidden row of an input row: three layers. -/
def hid (W0 : Fin 360 → Fin 512 → EReal) (b0 : Fin 512 → EReal) (W1 : Fin 512 → Fin 512 → EReal) (b1 : Fin 512 → EReal)
    (W2 : Fin 512 → Fin 512 → EReal) (b2 : Fin 512 → EReal) (xr : Fin 360 → EReal) : Fin 512 → EReal :=
  layer (layer (layer xr W0 b0) W1 b1) W2 b2

/-- The score of a hidden row against memory row j. -/
def score (K : Fin 512 → Fin 512 → EReal) (h : Fin 512 → EReal) (j : Fin 512) : EReal := ∑ c : Fin 512, h c * K j c

/-- The score against the negated memory, as the reference forms it: each entry of K times −1 first. -/
def scoreNeg (K : Fin 512 → Fin 512 → EReal) (h : Fin 512 → EReal) (j : Fin 512) : EReal :=
  ∑ c : Fin 512, h c * ((-1 : EReal) * K j c)

/-! ### The kernel's arrangement -/

/-- (h c · (1 / Σ_j e^{s j})) · Σ_j e^{s j} · K j c. -/
def ppK (K : Fin 512 → Fin 512 → EReal) (h : Fin 512 → EReal) (c : Fin 512) : EReal :=
  (h c * Ideal.div 1 (∑ j : Fin 512, Ideal.exp (score K h j))) * ∑ j : Fin 512, Ideal.exp (score K h j) * K j c

/-- The same with every weight e^{s j} replaced by its reciprocal 1 / e^{s j}. -/
def pnK (K : Fin 512 → Fin 512 → EReal) (h : Fin 512 → EReal) (c : Fin 512) : EReal :=
  (h c * Ideal.div 1 (∑ j : Fin 512, Ideal.div 1 (Ideal.exp (score K h j))))
    * ∑ j : Fin 512, Ideal.div 1 (Ideal.exp (score K h j)) * K j c

/-- Σ_c Wd c · h c + bd. -/
def predK (Wd : Fin 512 → EReal) (bd : EReal) (h : Fin 512 → EReal) : EReal := (∑ c : Fin 512, Wd c * h c) + bd

/-! ### The reference's arrangement -/

/-- The row maximum as the reference takes it: a fold of max from −∞, then once more max with −∞. -/
def rowMax (s : Fin 512 → EReal) : EReal := max ⊥ ((Finset.univ : Finset (Fin 512)).fold max ⊥ s)

/-- The shifted softmax weight of entry j. -/
def softmax (s : Fin 512 → EReal) (j : Fin 512) : EReal :=
  Ideal.div (Ideal.exp (s j - rowMax s)) (∑ j' : Fin 512, Ideal.exp (s j' - rowMax s))

def ppR (K : Fin 512 → Fin 512 → EReal) (h : Fin 512 → EReal) (c : Fin 512) : EReal :=
  h c * ∑ j : Fin 512, softmax (score K h) j * K j c

def pnR (K : Fin 512 → Fin 512 → EReal) (h : Fin 512 → EReal) (c : Fin 512) : EReal :=
  h c * ∑ j : Fin 512, softmax (scoreNeg K h) j * K j c

def predR (Wd : Fin 512 → EReal) (bd : EReal) (h : Fin 512 → EReal) : EReal := (∑ c : Fin 512, h c * Wd c) + bd

/-! ### Arrays as coordinate functions -/

/-- A rank-2 array read by its two coordinates. -/
abbrev mat {a b : Nat} (x : (⟨2, ![a, b]⟩ : Shape).Idx → EReal) : Fin a → Fin b → EReal := fun p q => x (ix2 p q)
/-- The transposed reading: entry (p, q) of the function is the array's (q, p). -/
abbrev matT {a b : Nat} (x : (⟨2, ![a, b]⟩ : Shape).Idx → EReal) : Fin b → Fin a → EReal := fun p q => x (ix2 q p)
/-- A rank-1 array read by its coordinate. -/
abbrev vec {a : Nat} (x : (⟨1, ![a]⟩ : Shape).Idx → EReal) : Fin a → EReal := fun p => x (ix1 p)

end Cert.Spec

end
-- ==== Proof.KernelHid.lean ====
/-
  The kernel's hidden block, entry by entry.

  Each half of the body pushes a 360 × 512 piece of the transposed input through three dense layers: a product into a
  zero block, a bias row spread down the rows, the maximum with zero. The first product contracts the leading axis of
  both operands, so row p of the hidden block is the three-layer hidden row of COLUMN p of the piece.
-/
import proofs.«138801_g72645076844940_cont_9to1_m_388_22_alg».proof.Proof.Spec
import proofs.«138801_g72645076844940_cont_9to1_m_388_22_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Idealize.ShloMosaic Idealize.ShloMosaic.ValueIdx Cert.KernelIdeal Cert.KernelIdeal.Gen Cert.Spec

/-! ### The operand indices of the two products

The first product contracts axis 0 of both operands (its left operand is the transposed input piece); the
other two contract axis 1 of the left operand with axis 0 of the right. Each operand index is read one axis at
a time. -/

theorem lhsT_0 (i : S512x512.Idx) (q : dot_S360x512_S360x512_S512x512_0_0_1_1_n_n.contr.Idx) :
    (dot_S360x512_S360x512_S512x512_0_0_1_1_n_n.lhsIdx i q 0).val = (q ⟨0, by decide⟩).val :=
  dot_S360x512_S360x512_S512x512_0_0_1_1_n_n.lhsIdx_val_of_single rfl i q
theorem lhsT_1 (i : S512x512.Idx) (q : dot_S360x512_S360x512_S512x512_0_0_1_1_n_n.contr.Idx) :
    (dot_S360x512_S360x512_S512x512_0_0_1_1_n_n.lhsIdx i q 1).val = (i 0).val := by
  unfold DotDims.lhsIdx
  rw [dif_neg (show ¬(1 : Fin S360x512.rank) ∈ dot_S360x512_S360x512_S512x512_0_0_1_1_n_n.lhsBatch by decide), dif_pos (show (1 : Fin S360x512.rank) ∈ dot_S360x512_S360x512_S512x512_0_0_1_1_n_n.lhsNonContracting by decide)]
  rfl
theorem rhsT_0 (i : S512x512.Idx) (q : dot_S360x512_S360x512_S512x512_0_0_1_1_n_n.contr.Idx) :
    (dot_S360x512_S360x512_S512x512_0_0_1_1_n_n.rhsIdx i q 0).val = (q ⟨0, by decide⟩).val :=
  dot_S360x512_S360x512_S512x512_0_0_1_1_n_n.rhsIdx_val_of_single rfl i q
theorem rhsT_1 (i : S512x512.Idx) (q : dot_S360x512_S360x512_S512x512_0_0_1_1_n_n.contr.Idx) :
    (dot_S360x512_S360x512_S512x512_0_0_1_1_n_n.rhsIdx i q 1).val = (i 1).val := by
  unfold DotDims.rhsIdx
  rw [dif_neg (show ¬(1 : Fin S360x512.rank) ∈ dot_S360x512_S360x512_S512x512_0_0_1_1_n_n.rhsBatch by decide), dif_pos (show (1 : Fin S360x512.rank) ∈ dot_S360x512_S360x512_S512x512_0_0_1_1_n_n.rhsNonContracting by decide)]
  rfl

theorem lhsP_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhsP_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhsP_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhsP_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-! ### The two products at an entry -/

/-- The product that contracts axis 0 of both operands, into the zero block: entry (p, q) is Σ_d x (d, p) · w (d, q). -/
theorem matmulT_apply (x w : FVec Ideal S360x512 .f32) (p q : Fin 512) :
    matmul dot_S360x512_S360x512_S512x512_0_0_1_1_n_n none x w (constant (F := Ideal) S512x512 .f32 0x00000000#32) (ix2 p q)
      = ∑ d : Fin 360, x (ix2 d p) * w (ix2 d q) := by
  refine (Ideal.matmul_constant_zero_apply dot_S360x512_S360x512_S512x512_0_0_1_1_n_n none x w (ix2 p q)).trans ?_
  rw [← Equiv.sum_comp (ValueIdx.contrEquiv1 dot_S360x512_S360x512_S512x512_0_0_1_1_n_n 360 rfl rfl).symm]
  refine Finset.sum_congr rfl fun k _ => ?_
  have hk := ValueIdx.contrEquiv1_symm_val dot_S360x512_S360x512_S512x512_0_0_1_1_n_n 360 rfl rfl k
  have el : dot_S360x512_S360x512_S512x512_0_0_1_1_n_n.lhsIdx (ix2 p q) ((ValueIdx.contrEquiv1 dot_S360x512_S360x512_S512x512_0_0_1_1_n_n 360 rfl rfl).symm k) = ix2 k p := funext fun a => Fin.ext (by
    match a with
    | ⟨0, _⟩ => exact (lhsT_0 _ _).trans hk
    | ⟨1, _⟩ => exact lhsT_1 _ _)
  have er : dot_S360x512_S360x512_S512x512_0_0_1_1_n_n.rhsIdx (ix2 p q) ((ValueIdx.contrEquiv1 dot_S360x512_S360x512_S512x512_0_0_1_1_n_n 360 rfl rfl).symm k) = ix2 k q := funext fun a => Fin.ext (by
    match a with
    | ⟨0, _⟩ => exact (rhsT_0 _ _).trans hk
    | ⟨1, _⟩ => exact rhsT_1 _ _)
  rw [el, er]

/-- The rows-by-columns product into the zero block: entry (p, q) is Σ_k a (p, k) · w (k, q). -/
theorem matmulP_apply (a w : FVec Ideal S512x512 .f32) (p q : Fin 512) :
    matmul dot_S512x512_S512x512_S512x512_1_0_0_1_n_n none a w (constant (F := Ideal) S512x512 .f32 0x00000000#32) (ix2 p q)
      = ∑ k : Fin 512, a (ix2 p k) * w (ix2 k q) := by
  refine (Ideal.matmul_constant_zero_apply dot_S512x512_S512x512_S512x512_1_0_0_1_n_n none a w (ix2 p q)).trans ?_
  rw [← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p q) ((ValueIdx.contrEquiv1 dot_S512x512_S512x512_S512x512_1_0_0_1_n_n 512 rfl rfl).symm k) = ix2 p k := funext fun a => Fin.ext (by
    match a with
    | ⟨0, _⟩ => exact lhsP_0 _ _
    | ⟨1, _⟩ => exact (lhsP_1 _ _).trans hk)
  have er : dot_S512x512_S512x512_S512x512_1_0_0_1_n_n.rhsIdx (ix2 p q) ((ValueIdx.contrEquiv1 dot_S512x512_S512x512_S512x512_1_0_0_1_n_n 512 rfl rfl).symm k) = ix2 k q := funext fun a => Fin.ext (by
    match a with
    | ⟨0, _⟩ => exact (rhsP_0 _ _).trans hk
    | ⟨1, _⟩ => exact rhsP_1 _ _)
  rw [el, er]

/-! ### The bias row and the rectifier -/

/-- The bias, cast to one row and broadcast over the 512 rows, reads the bias at the column. -/
theorem bias_apply (b : FVec Ideal S512 .f32) (p q : Fin 512) :
    broadcastTo S512x512 (shapeCast S1x512 b shapeCasts_S512_S1x512) broadcasts_S1x512_S512x512 (ix2 p q) = b (ix1 q) :=
  (broadcastTo_1b_ab_apply (shapeCast S1x512 b shapeCasts_S512_S1x512) broadcasts_S1x512_S512x512 p q).trans
    (shapeCast_a_1a_apply b shapeCasts_S512_S1x512 (0 : Fin 1) q)

/-- One dense layer as the body forms it from a product block `m`: add the bias row, then the maximum with the zero
    splat. -/
theorem relu_bias_apply (m : FVec Ideal S512x512 .f32) (b : FVec Ideal S512 .f32) (p q : Fin 512) :
    maximumf (addf m (broadcastTo S512x512 (shapeCast S1x512 b shapeCasts_S512_S1x512) broadcasts_S1x512_S512x512))
        (broadcast S512x512 (Scalar.ofBits (F := Ideal) .f32 0x00000000#32)) (ix2 p q)
      = max (m (ix2 p q) + b (ix1 q)) 0 := by
  rw [maximumf_apply, addf_apply, broadcast_apply, bias_apply]
  exact congrArg (max _) Ideal.ofBits_zero_f32

/-- An ordinary layer at an entry: row p of the input block through the layer, at column q. -/
theorem layerP_apply (a w : FVec Ideal S512x512 .f32) (b : FVec Ideal S512 .f32) (p q : Fin 512) :
    maximumf (addf (matmul dot_S512x512_S512x512_S512x512_1_0_0_1_n_n none a w (constant (F := Ideal) S512x512 .f32 0x00000000#32))
          (broadcastTo S512x512 (shapeCast S1x512 b shapeCasts_S512_S1x512) broadcasts_S1x512_S512x512))
        (broadcast S512x512 (Scalar.ofBits (F := Ideal) .f32 0x00000000#32)) (ix2 p q)
      = layer (fun k => a (ix2 p k)) (mat w) (vec b) q := by
  refine (relu_bias_apply _ b p q).trans ?_
  rw [matmulP_apply]
  rfl

/-- The first layer at an entry: column p of the transposed input piece through the layer, at column q. -/
theorem layerT_apply (x w : FVec Ideal S360x512 .f32) (b : FVec Ideal S512 .f32) (p q : Fin 512) :
    maximumf (addf (matmul dot_S360x512_S360x512_S512x512_0_0_1_1_n_n none x w (constant (F := Ideal) S512x512 .f32 0x00000000#32))
          (broadcastTo S512x512 (shapeCast S1x512 b shapeCasts_S512_S1x512) broadcasts_S1x512_S512x512))
        (broadcast S512x512 (Scalar.ofBits (F := Ideal) .f32 0x00000000#32)) (ix2 p q)
      = layer (fun d => x (ix2 d p)) (mat w) (vec b) q := by
  refine (relu_bias_apply _ b p q).trans ?_
  rw [matmulT_apply]
  rfl

/-! ### The two hidden blocks -/

/-- The first half's hidden block: row p of the payload is the three-layer hidden row of column p of the
    loaded 360 × 512 piece of the transposed input. -/
theorem pay7_apply (v1 : Vec Ideal S360x512 .f32) (v2 : Vec Ideal S512 .f32) (v3 : Vec Ideal S512x512 .f32)
    (v4 : Vec Ideal S512 .f32) (v5 : Vec Ideal S512x512 .f32) (v6 : Vec Ideal S512 .f32) (v10 : Vec Ideal S360x512 .f32)
    (p q : Fin 512) :
    k0_pay7 v1 v2 v3 v4 v5 v6 v10 (ix2 p q)
      = hid (mat v1) (vec v2) (mat v3) (vec v4) (mat v5) (vec v6) (fun d => v10 (ix2 d p)) q := by
  unfold k0_pay7 hid
  refine (layerP_apply _ v5 v6 p q).trans ?_
  refine congrArg (fun f => layer f (mat v5) (vec v6) q) (funext fun k => ?_)
  refine (layerP_apply _ v3 v4 p k).trans ?_
  refine congrArg (fun f => layer f (mat v3) (vec v4) k) (funext fun c => ?_)
  refine (layerT_apply _ v1 v2 p c).trans ?_
  rw [shapeCast_self]

/-- The second half's hidden block, which the body computes in two steps. -/
theorem pay1_pay13_apply (v1 : Vec Ideal S360x512 .f32) (v2 : Vec Ideal S512 .f32) (v3 : Vec Ideal S512x512 .f32)
    (v4 : Vec Ideal S512 .f32) (v5 : Vec Ideal S512x512 .f32) (v6 : Vec Ideal S512 .f32) (v57 : Vec Ideal S360x512 .f32)
    (p q : Fin 512) :
    k0_pay1 v6 (k0_pay13 v1 v2 v3 v4 v5 v57) (ix2 p q)
      = hid (mat v1) (vec v2) (mat v3) (vec v4) (mat v5) (vec v6) (fun d => v57 (ix2 d p)) q := by
  unfold k0_pay1 k0_pay13 hid
  refine (layerP_apply _ v5 v6 p q).trans ?_
  refine congrArg (fun f => layer f (mat v5) (vec v6) q) (funext fun k => ?_)
  refine (layerP_apply _ v3 v4 p k).trans ?_
  refine congrArg (fun f => layer f (mat v3) (vec v4) k) (funext fun c => ?_)
  refine (layerT_apply _ v1 v2 p c).trans ?_
  rw [shapeCast_self]

end Cert.KernelIdeal.KVal

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.KernelHeads.lean ====
/-
  The kernel's read, un-read and prediction blocks, entry by entry, over a hidden block h and the memory K.

  With t = e^{h·Kᵀ} and r = 1 / t (entrywise), the read block is (h · (1 / rowsum t)) · (t·K), the un-read block the
  same with r for t, and the prediction row is Wdᵀ·hᵀ + bd. Each is read at an entry as the sum it is.
-/
import proofs.«138801_g72645076844940_cont_9to1_m_388_22_alg».proof.Proof.Spec
import proofs.«138801_g72645076844940_cont_9to1_m_388_22_alg».proof.Proof.LibLayout
import proofs.«138801_g72645076844940_cont_9to1_m_388_22_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Idealize.ShloMosaic Idealize.ShloMosaic.ValueIdx Cert.KernelIdeal Cert.KernelIdeal.Gen Cert.Spec

/-- Row p of a 512 × 512 block. -/
abbrev row (h : FVec Ideal S512x512 .f32) (p : Fin 512) : Fin 512 → EReal := fun c => h (ix2 p c)

/-! ## Each operation kind read at an index, over variables of the literal shapes -/

namespace Heads

/-! ### The literals -/

/-- The word 0x3F800000 is the number one. -/
private theorem one_f32 : Scalar.ofBits (F := Ideal) .f32 0x3F800000#32 = (1 : EReal) :=
  IdealRules.sign_bit.ideal_onePat .f32

/-! ### The product of a block with the transposed memory: entry (p, j) = Σ_c h (p, c) · K (j, c) -/

private theorem tt_lhs_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
private theorem tt_lhs_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
private theorem tt_rhs_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
private theorem tt_rhs_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

private theorem matmul_tt_apply (h K : FVec Ideal S512x512 .f32) (p j : Fin 512) :
    matmul dot_S512x512_S512x512_S512x512_1_1_0_0_n_n none h K (constant (F := Ideal) S512x512 .f32 0x00000000#32) (ix2 p j)
      = ∑ c : Fin 512, h (ix2 p c) * K (ix2 j c) := by
  refine (Ideal.matmul_constant_zero_apply dot_S512x512_S512x512_S512x512_1_1_0_0_n_n none h K (ix2 p j)).trans ?_
  rw [← Equiv.sum_comp (ValueIdx.contrEquiv1 dot_S512x512_S512x512_S512x512_1_1_0_0_n_n 512 rfl rfl).symm]
  refine Finset.sum_congr rfl fun k _ => ?_
  have hk := ValueIdx.contrEquiv1_symm_val dot_S512x512_S512x512_S512x512_1_1_0_0_n_n 512 rfl rfl k
  have el : dot_S512x512_S512x512_S512x512_1_1_0_0_n_n.lhsIdx (ix2 p j) ((ValueIdx.contrEquiv1 dot_S512x512_S512x512_S512x512_1_1_0_0_n_n 512 rfl rfl).symm k) = ix2 p k := funext fun a => Fin.ext (by
    match a with
    | ⟨0, _⟩ => exact tt_lhs_0 _ _
    | ⟨1, _⟩ => exact (tt_lhs_1 _ _).trans hk)
  have er : dot_S512x512_S512x512_S512x512_1_1_0_0_n_n.rhsIdx (ix2 p j) ((ValueIdx.contrEquiv1 dot_S512x512_S512x512_S512x512_1_1_0_0_n_n 512 rfl rfl).symm k) = ix2 j k := funext fun a => Fin.ext (by
    match a with
    | ⟨0, _⟩ => exact tt_rhs_0 _ _
    | ⟨1, _⟩ => exact (tt_rhs_1 _ _).trans hk)
  rw [el, er]

/-! ### The rows-by-columns product: entry (p, q) = Σ_j t (p, j) · K (j, q) -/

private theorem rc_lhs_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
private theorem rc_lhs_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
private theorem rc_rhs_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
private theorem rc_rhs_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

private theorem matmul_rc_apply (t K : FVec Ideal S512x512 .f32) (p q : Fin 512) :
    matmul dot_S512x512_S512x512_S512x512_1_0_0_1_n_n none t K (constant (F := Ideal) S512x512 .f32 0x00000000#32) (ix2 p q)
      = ∑ j : Fin 512, t (ix2 p j) * K (ix2 j q) := by
  refine (Ideal.matmul_constant_zero_apply dot_S512x512_S512x512_S512x512_1_0_0_1_n_n none t K (ix2 p q)).trans ?_
  rw [← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p q) ((ValueIdx.contrEquiv1 dot_S512x512_S512x512_S512x512_1_0_0_1_n_n 512 rfl rfl).symm k) = ix2 p k := funext fun a => Fin.ext (by
    match a with
    | ⟨0, _⟩ => exact rc_lhs_0 _ _
    | ⟨1, _⟩ => exact (rc_lhs_1 _ _).trans hk)
  have er : dot_S512x512_S512x512_S512x512_1_0_0_1_n_n.rhsIdx (ix2 p q) ((ValueIdx.contrEquiv1 dot_S512x512_S512x512_S512x512_1_0_0_1_n_n 512 rfl rfl).symm k) = ix2 k q := funext fun a => Fin.ext (by
    match a with
    | ⟨0, _⟩ => exact (rc_rhs_0 _ _).trans hk
    | ⟨1, _⟩ => exact rc_rhs_1 _ _)
  rw [el, er]

/-! ### A 1 × 512 row against the rows of a block: entry (0, q) = Σ_c w (0, c) · h (q, c) -/

private theorem wt_lhs_0 (i : S1x512.Idx) (q : dot_S1x512_S512x512_S1x512_1_1_0_0_n_n.contr.Idx) :
    (dot_S1x512_S512x512_S1x512_1_1_0_0_n_n.lhsIdx i q 0).val = (i 0).val := by
  unfold DotDims.lhsIdx
  rw [dif_neg (show ¬(0 : Fin S1x512.rank) ∈ dot_S1x512_S512x512_S1x512_1_1_0_0_n_n.lhsBatch by decide), dif_pos (show (0 : Fin S1x512.rank) ∈ dot_S1x512_S512x512_S1x512_1_1_0_0_n_n.lhsNonContracting by decide)]
  rfl
private theorem wt_lhs_1 (i : S1x512.Idx) (q : dot_S1x512_S512x512_S1x512_1_1_0_0_n_n.contr.Idx) :
    (dot_S1x512_S512x512_S1x512_1_1_0_0_n_n.lhsIdx i q 1).val = (q ⟨0, by decide⟩).val :=
  dot_S1x512_S512x512_S1x512_1_1_0_0_n_n.lhsIdx_val_of_single rfl i q
private theorem wt_rhs_0 (i : S1x512.Idx) (q : dot_S1x512_S512x512_S1x512_1_1_0_0_n_n.contr.Idx) :
    (dot_S1x512_S512x512_S1x512_1_1_0_0_n_n.rhsIdx i q 0).val = (i 1).val := by
  unfold DotDims.rhsIdx
  rw [dif_neg (show ¬(0 : Fin S512x512.rank) ∈ dot_S1x512_S512x512_S1x512_1_1_0_0_n_n.rhsBatch by decide), dif_pos (show (0 : Fin S512x512.rank) ∈ dot_S1x512_S512x512_S1x512_1_1_0_0_n_n.rhsNonContracting by decide)]
  rfl
private theorem wt_rhs_1 (i : S1x512.Idx) (q : dot_S1x512_S512x512_S1x512_1_1_0_0_n_n.contr.Idx) :
    (dot_S1x512_S512x512_S1x512_1_1_0_0_n_n.rhsIdx i q 1).val = (q ⟨0, by decide⟩).val :=
  dot_S1x512_S512x512_S1x512_1_1_0_0_n_n.rhsIdx_val_of_single rfl i q

private theorem matmul_wt_apply (w : FVec Ideal S1x512 .f32) (h : FVec Ideal S512x512 .f32) (q : Fin 512) :
    matmul dot_S1x512_S512x512_S1x512_1_1_0_0_n_n none w h (constant (F := Ideal) S1x512 .f32 0x00000000#32) (ix2 (0 : Fin 1) q)
      = ∑ c : Fin 512, w (ix2 (0 : Fin 1) c) * h (ix2 q c) := by
  refine (Ideal.matmul_constant_zero_apply dot_S1x512_S512x512_S1x512_1_1_0_0_n_n none w h (ix2 (0 : Fin 1) q)).trans ?_
  rw [← Equiv.sum_comp (ValueIdx.contrEquiv1 dot_S1x512_S512x512_S1x512_1_1_0_0_n_n 512 rfl rfl).symm]
  refine Finset.sum_congr rfl fun k _ => ?_
  have hk := ValueIdx.contrEquiv1_symm_val dot_S1x512_S512x512_S1x512_1_1_0_0_n_n 512 rfl rfl k
  have el : dot_S1x512_S512x512_S1x512_1_1_0_0_n_n.lhsIdx (ix2 (0 : Fin 1) q) ((ValueIdx.contrEquiv1 dot_S1x512_S512x512_S1x512_1_1_0_0_n_n 512 rfl rfl).symm k) = ix2 (0 : Fin 1) k := funext fun a => Fin.ext (by
    match a with
    | ⟨0, _⟩ => exact wt_lhs_0 _ _
    | ⟨1, _⟩ => exact (wt_lhs_1 _ _).trans hk)
  have er : dot_S1x512_S512x512_S1x512_1_1_0_0_n_n.rhsIdx (ix2 (0 : Fin 1) q) ((ValueIdx.contrEquiv1 dot_S1x512_S512x512_S1x512_1_1_0_0_n_n 512 rfl rfl).symm k) = ix2 q k := funext fun a => Fin.ext (by
    match a with
    | ⟨0, _⟩ => exact wt_rhs_0 _ _
    | ⟨1, _⟩ => exact (wt_rhs_1 _ _).trans hk)
  rw [el, er]

/-! ### The lane sum and the column normaliser -/

/-- The sum over the lanes of row p. -/
private theorem rowsum_apply (v : FVec Ideal S512x512 .f32) (p : Fin 512) :
    multiReduction (F := Ideal) .add [1] S512 v 0x00000000#32 reduces_S512x512_S512 (.inl rfl) rfl (ix1 p)
      = ∑ j : Fin 512, v (ix2 p j) := by
  refine (Ideal.multiReduction_add_single v 0x00000000#32 reduces_S512x512_S512 (.inl rfl) rfl (ix1 p)).trans ?_
  show ∑ k : Fin 512, v (reduces_S512x512_S512.lift (ix1 p) k) = ∑ j : Fin 512, v (ix2 p j)
  refine Finset.sum_congr rfl fun k _ => congrArg v ?_
  funext a
  apply Fin.ext
  match a with
  | ⟨0, _⟩ => rfl
  | ⟨1, _⟩ => rfl

/-- One over the row sum, spread over the columns: at (p, q) it is 1 / Σ_j v (p, j). -/
private theorem normaliser_apply (v : FVec Ideal S512x512 .f32) (p q : Fin 512) :
    broadcastTo S512x512
        (divf (broadcast S512x1 (Scalar.ofBits (F := Ideal) .f32 0x3F800000#32))
          (shapeCast S512x1 (multiReduction (F := Ideal) .add [1] S512 v 0x00000000#32 reduces_S512x512_S512 (.inl rfl) rfl)
            shapeCasts_S512_S512x1))
        broadcasts_S512x1_S512x512 (ix2 p q)
      = Ideal.div 1 (∑ j : Fin 512, v (ix2 p j)) := by
  refine (LibLayout.broadcastTo_a1_ab_apply _ broadcasts_S512x1_S512x512 p q).trans ?_
  refine (divf_apply _ _ _).trans ?_
  refine congrArg₂ Ideal.div one_f32 ?_
  refine (LibLayout.shapeCast_a_a1_apply _ shapeCasts_S512_S512x1 p (0 : Fin 1)).trans ?_
  exact rowsum_apply v p

/-- The bias, a one-element vector made 1 × 1 and spread over the row: at (0, q) it is the element. -/
private theorem headBias_apply (v9 : FVec Ideal S1 .f32) (q : Fin 512) :
    broadcastTo S1x512 (shapeCast S1x1 v9 shapeCasts_S1_S1x1) broadcasts_S1x1_S1x512 (ix2 (0 : Fin 1) q) = v9 (ix1 (0 : Fin 1)) :=
  (LibLayout.broadcastTo_a1_ab_apply _ broadcasts_S1x1_S1x512 (0 : Fin 1) q).trans
    (LibLayout.shapeCast_a_a1_apply v9 shapeCasts_S1_S1x1 (0 : Fin 1) (0 : Fin 1))

/-! ### The payload bodies over variables -/

/-- The read payload at (p, q): (h (p, q) · (1 / Σ_j t (p, j))) · Σ_j t (p, j) · K (j, q). -/
private theorem pay10_body (v0 h t : FVec Ideal S512x512 .f32) (p q : Fin 512) :
    k0_pay10 v0 h t (ix2 p q)
      = (h (ix2 p q) * Ideal.div 1 (∑ j : Fin 512, t (ix2 p j))) * ∑ j : Fin 512, t (ix2 p j) * v0 (ix2 j q) := by
  unfold k0_pay10
  refine (mulf_apply _ _ _).trans ?_
  refine congrArg₂ (· * ·) ?_ (matmul_rc_apply t v0 p q)
  refine (mulf_apply _ _ _).trans ?_
  exact congrArg (h (ix2 p q) * ·) (normaliser_apply t p q)

/-- The un-read payload has the same body over its own weights. -/
private theorem pay11_body (v0 h t : FVec Ideal S512x512 .f32) (p q : Fin 512) :
    k0_pay11 v0 h t (ix2 p q)
      = (h (ix2 p q) * Ideal.div 1 (∑ j : Fin 512, t (ix2 p j))) * ∑ j : Fin 512, t (ix2 p j) * v0 (ix2 j q) := by
  unfold k0_pay11
  refine (mulf_apply _ _ _).trans ?_
  refine congrArg₂ (· * ·) ?_ (matmul_rc_apply t v0 p q)
  refine (mulf_apply _ _ _).trans ?_
  exact congrArg (h (ix2 p q) * ·) (normaliser_apply t p q)

/-- The exponentiated scores of a block h against the memory: at (p, j) it is e^{score of row p against K j}. -/
private theorem expScore_apply (v0 h : FVec Ideal S512x512 .f32) (p j : Fin 512) :
    exp (matmul dot_S512x512_S512x512_S512x512_1_1_0_0_n_n none h v0 (constant (F := Ideal) S512x512 .f32 0x00000000#32)) (ix2 p j)
      = Ideal.exp (score (mat v0) (row h p) j) :=
  congrArg Ideal.exp (matmul_tt_apply h v0 p j)

/-- The exponentiated scores of the second half's hidden block. -/
theorem pay2_apply (v0 : Vec Ideal S512x512 .f32) (v6 : Vec Ideal S512 .f32) (v71 : FVec Ideal S512x512 .f32) (p j : Fin 512) :
    k0_pay2 v0 v6 v71 (ix2 p j) = Ideal.exp (score (mat v0) (row (k0_pay1 v6 v71) p) j) := by
  unfold k0_pay2
  exact expScore_apply v0 (k0_pay1 v6 v71) p j

end Heads

/-! ### First half (payloads 8 to 12) -/

theorem pay8_apply (v0 : Vec Ideal S512x512 .f32) (v1 : Vec Ideal S360x512 .f32) (v2 : Vec Ideal S512 .f32) (v3 : Vec Ideal S512x512 .f32)
    (v4 : Vec Ideal S512 .f32) (v5 : Vec Ideal S512x512 .f32) (v6 : Vec Ideal S512 .f32) (v10 : Vec Ideal S360x512 .f32) (p j : Fin 512) :
    k0_pay8 v0 v1 v2 v3 v4 v5 v6 v10 (ix2 p j) = Ideal.exp (score (mat v0) (row (k0_pay7 v1 v2 v3 v4 v5 v6 v10) p) j) := by
  unfold k0_pay8
  exact Heads.expScore_apply v0 (k0_pay7 v1 v2 v3 v4 v5 v6 v10) p j

theorem pay9_apply (v0 : Vec Ideal S512x512 .f32) (v1 : Vec Ideal S360x512 .f32) (v2 : Vec Ideal S512 .f32) (v3 : Vec Ideal S512x512 .f32)
    (v4 : Vec Ideal S512 .f32) (v5 : Vec Ideal S512x512 .f32) (v6 : Vec Ideal S512 .f32) (v10 : Vec Ideal S360x512 .f32) (p j : Fin 512) :
    k0_pay9 v0 v1 v2 v3 v4 v5 v6 v10 (ix2 p j)
      = Ideal.div 1 (Ideal.exp (score (mat v0) (row (k0_pay7 v1 v2 v3 v4 v5 v6 v10) p) j)) := by
  unfold k0_pay9
  refine (divf_apply _ _ _).trans ?_
  exact congrArg₂ Ideal.div Heads.one_f32 (pay8_apply v0 v1 v2 v3 v4 v5 v6 v10 p j)

theorem pay10_apply (v0 : Vec Ideal S512x512 .f32) (h v31 : FVec Ideal S512x512 .f32)
    (hs : ∀ p j : Fin 512, v31 (ix2 p j) = Ideal.exp (score (mat v0) (row h p) j)) (p q : Fin 512) :
    k0_pay10 v0 h v31 (ix2 p q) = ppK (mat v0) (row h p) q := by
  refine (Heads.pay10_body v0 h v31 p q).trans ?_
  have e1 : ∑ j : Fin 512, v31 (ix2 p j) = ∑ j : Fin 512, Ideal.exp (score (mat v0) (row h p) j) :=
    Finset.sum_congr rfl fun j _ => hs p j
  have e2 : ∑ j : Fin 512, v31 (ix2 p j) * v0 (ix2 j q) = ∑ j : Fin 512, Ideal.exp (score (mat v0) (row h p) j) * mat v0 j q :=
    Finset.sum_congr rfl fun j _ => congrArg (· * v0 (ix2 j q)) (hs p j)
  rw [e1, e2]
  rfl

theorem pay11_apply (v0 : Vec Ideal S512x512 .f32) (h v33 : FVec Ideal S512x512 .f32)
    (hs : ∀ p j : Fin 512, v33 (ix2 p j) = Ideal.div 1 (Ideal.exp (score (mat v0) (row h p) j))) (p q : Fin 512) :
    k0_pay11 v0 h v33 (ix2 p q) = pnK (mat v0) (row h p) q := by
  refine (Heads.pay11_body v0 h v33 p q).trans ?_
  have e1 : ∑ j : Fin 512, v33 (ix2 p j) = ∑ j : Fin 512, Ideal.div 1 (Ideal.exp (score (mat v0) (row h p) j)) :=
    Finset.sum_congr rfl fun j _ => hs p j
  have e2 : ∑ j : Fin 512, v33 (ix2 p j) * v0 (ix2 j q)
      = ∑ j : Fin 512, Ideal.div 1 (Ideal.exp (score (mat v0) (row h p) j)) * mat v0 j q :=
    Finset.sum_congr rfl fun j _ => congrArg (· * v0 (ix2 j q)) (hs p j)
  rw [e1, e2]
  rfl

theorem pay12_apply (v8 : FVec Ideal S1x512 .f32) (v9 : Vec Ideal S1 .f32) (h : FVec Ideal S512x512 .f32) (q : Fin 512) :
    k0_pay12 v8 v9 h (ix2 (0 : Fin 1) q) = predK (fun c => v8 (ix2 (0 : Fin 1) c)) (v9 (ix1 (0 : Fin 1))) (row h q) := by
  unfold k0_pay12
  refine (addf_apply _ _ _).trans ?_
  exact congrArg₂ (· + ·) (Heads.matmul_wt_apply v8 h q) (Heads.headBias_apply v9 q)

/-! ### Second half (payloads 2 to 5), over the hidden block `k0_pay1 v6 v71` -/

theorem pay3_apply (v0 : Vec Ideal S512x512 .f32) (v6 : Vec Ideal S512 .f32) (v71 : FVec Ideal S512x512 .f32) (p q : Fin 512) :
    k0_pay3 v0 v6 v71 (ix2 p q) = ppK (mat v0) (row (k0_pay1 v6 v71) p) q := by
  -- the body is the first half's read payload at the second half's hidden block and its exponentiated scores
  have e : k0_pay3 v0 v6 v71 = k0_pay10 v0 (k0_pay1 v6 v71) (k0_pay2 v0 v6 v71) := rfl
  rw [e]
  exact pay10_apply v0 (k0_pay1 v6 v71) (k0_pay2 v0 v6 v71) (Heads.pay2_apply v0 v6 v71) p q

theorem pay4_apply (v0 : Vec Ideal S512x512 .f32) (v6 : Vec Ideal S512 .f32) (v71 : FVec Ideal S512x512 .f32) (p q : Fin 512) :
    k0_pay4 v0 v6 v71 (ix2 p q) = pnK (mat v0) (row (k0_pay1 v6 v71) p) q := by
  -- the body is the first half's un-read payload, the reciprocal weights formed in place
  have e : k0_pay4 v0 v6 v71
      = k0_pay11 v0 (k0_pay1 v6 v71)
          (divf (broadcast S512x512 (Scalar.ofBits (F := Ideal) .f32 0x3F800000#32)) (k0_pay2 v0 v6 v71)) := rfl
  rw [e]
  refine pay11_apply v0 (k0_pay1 v6 v71) _ (fun p j => ?_) p q
  refine (divf_apply _ _ _).trans ?_
  exact congrArg₂ Ideal.div Heads.one_f32 (Heads.pay2_apply v0 v6 v71 p j)

theorem pay5_apply (v6 : Vec Ideal S512 .f32) (v8 : FVec Ideal S1x512 .f32) (v9 : Vec Ideal S1 .f32) (v71 : FVec Ideal S512x512 .f32) (q : Fin 512) :
    k0_pay5 v6 v8 v9 v71 (ix2 (0 : Fin 1) q)
      = predK (fun c => v8 (ix2 (0 : Fin 1) c)) (v9 (ix1 (0 : Fin 1))) (row (k0_pay1 v6 v71) q) := by
  have e : k0_pay5 v6 v8 v9 v71 = k0_pay12 v8 v9 (k0_pay1 v6 v71) := rfl
  rw [e]
  exact pay12_apply v8 v9 (k0_pay1 v6 v71) q

/-- The shape cast the body applies to the loaded 1 × 512 row of Wd is the identity. -/
theorem pay6_apply (v7 : Vec Ideal S1x512 .f32) (c : Fin 512) : k0_pay6 v7 (ix2 (0 : Fin 1) c) = v7 (ix2 (0 : Fin 1) c) := by
  unfold k0_pay6
  exact congrFun (shapeCast_self v7 shapeCasts_S1x512_S1x512) (ix2 (0 : Fin 1) c)

end Cert.KernelIdeal.KVal

end
-- ==== Proof.KernelBlock.lean ====
/-
  What the body leaves in each output staging block, read at an index.

  The body treats its 1024 staged columns of the transposed input as two halves of 512; each half produces 512 rows
  of the two 1024 × 512 output blocks and 512 entries of the 1 × 1024 prediction row. Both halves compute the same
  function of their column of the transposed input, so each output block is ONE function of its index: row r of a
  block depends on column r of the staged input only.
-/
import proofs.«138801_g72645076844940_cont_9to1_m_388_22_alg».proof.Proof.Gen.KernelIdeal.Frame
import proofs.«138801_g72645076844940_cont_9to1_m_388_22_alg».proof.Proof.KernelHid
import proofs.«138801_g72645076844940_cont_9to1_m_388_22_alg».proof.Proof.KernelHeads

set_option maxRecDepth 16384

noncomputable section

namespace Cert.KernelIdeal.KVal

open Idealize.ShloMosaic Idealize.ShloMosaic.ValueIdx Cert.KernelIdeal Cert.KernelIdeal.Gen Cert.Spec

theorem hz2 : (![0, 0] : Fin 2 → Nat) = fun _ => 0 := funext fun a => by fin_cases a <;> rfl
theorem hz1 : (![0] : Fin 1 → Nat) = fun _ => 0 := funext fun a => by fin_cases a <;> rfl

/-- The hidden row of local row r of a staged block: three layers applied to column r of the staged transposed input. -/
def hrowB (x0 : Vec Ideal S360x1024 .f32) (x2 : Vec Ideal S360x512 .f32) (x3 : Vec Ideal S512 .f32) (x4 : Vec Ideal S512x512 .f32)
    (x5 : Vec Ideal S512 .f32) (x6 : Vec Ideal S512x512 .f32) (x7 : Vec Ideal S512 .f32) (r : Fin 1024) : Fin 512 → EReal :=
  hid (mat x2) (vec x3) (mat x4) (vec x5) (mat x6) (vec x7) (fun d => x0 (ix2 d r))

/-- The first 512 columns of the staged input, entry (d, p). -/
theorem ld_lo (x0 : Vec Ideal S360x1024 .f32) (d : Fin 360) (p : Fin 512) :
    View.ld x0 r0_5 (ix2 d p) = x0 (ix2 d (⟨p.val, by omega⟩ : Fin 1024)) := by
  show x0 _ = x0 _
  congr 1
  funext a; apply Fin.ext
  match a with
  | ⟨0, _⟩ => show 0 + 1 * d.val = d.val; omega
  | ⟨1, _⟩ => show 0 + 1 * p.val = p.val; omega

/-- The last 512 columns of the staged input, entry (d, p). -/
theorem ld_hi (x0 : Vec Ideal S360x1024 .f32) (d : Fin 360) (p : Fin 512) :
    View.ld x0 r0_8 (ix2 d p) = x0 (ix2 d (⟨p.val + 512, by omega⟩ : Fin 1024)) := by
  show x0 _ = x0 _
  congr 1
  funext a; apply Fin.ext
  match a with
  | ⟨0, _⟩ => show 0 + 1 * d.val = d.val; omega
  | ⟨1, _⟩ => show 512 + 1 * p.val = p.val + 512; omega

/-- Row a of the second half's hidden block is the hidden row of staged column a + 512. -/
theorem row_hi (x0 : Vec Ideal S360x1024 .f32) (x1 : Vec Ideal S512x512 .f32) (x2 : Vec Ideal S360x512 .f32) (x3 : Vec Ideal S512 .f32)
    (x4 : Vec Ideal S512x512 .f32) (x5 : Vec Ideal S512 .f32) (x6 : Vec Ideal S512x512 .f32) (x7 : Vec Ideal S512 .f32)
    (x8 : Vec Ideal S1x512 .f32) (x9 : Vec Ideal S1 .f32) (a : Fin 512) :
    row (k0_pay1 x7 (k0_pay13 x2 x3 x4 x5 x6 (View.ld x0 r0_8))) a
      = hrowB x0 x2 x3 x4 x5 x6 x7 (⟨a.val + 512, by omega⟩ : Fin 1024) := by
  funext c
  refine (pay1_pay13_apply x2 x3 x4 x5 x6 x7 _ a c).trans ?_
  unfold hrowB
  congr 1
  funext d
  exact ld_hi x0 d a

/-- Row a of the first half's hidden block is the hidden row of staged column a. -/
theorem row_lo (x0 : Vec Ideal S360x1024 .f32) (x1 : Vec Ideal S512x512 .f32) (x2 : Vec Ideal S360x512 .f32) (x3 : Vec Ideal S512 .f32)
    (x4 : Vec Ideal S512x512 .f32) (x5 : Vec Ideal S512 .f32) (x6 : Vec Ideal S512x512 .f32) (x7 : Vec Ideal S512 .f32)
    (x8 : Vec Ideal S1x512 .f32) (x9 : Vec Ideal S1 .f32) (a : Fin 512) :
    row (k0_pay7 x2 x3 x4 x5 x6 x7 (View.ld x0 r0_5)) a
      = hrowB x0 x2 x3 x4 x5 x6 x7 (⟨a.val, by omega⟩ : Fin 1024) := by
  funext c
  refine (pay7_apply x2 x3 x4 x5 x6 x7 _ a c).trans ?_
  unfold hrowB
  congr 1
  funext d
  exact ld_lo x0 d a

/-- Where the lower 512 rows of a 1024 × 512 block sit. -/
theorem emb_rows_hi (a b : Fin 512) :
    (r0_9.emb (ix2 a b) : S1024x512.Idx) = ix2 (⟨a.val + 512, by omega⟩ : Fin 1024) b := by
  funext ax; apply Fin.ext
  match ax with
  | ⟨0, _⟩ => show 512 + 1 * a.val = a.val + 512; omega
  | ⟨1, _⟩ => show 0 + 1 * b.val = b.val; omega

/-- Where the upper 512 rows sit. -/
theorem emb_rows_lo (a b : Fin 512) :
    (r0_6.emb (ix2 a b) : S1024x512.Idx) = ix2 (⟨a.val, by omega⟩ : Fin 1024) b := by
  funext ax; apply Fin.ext
  match ax with
  | ⟨0, _⟩ => show 0 + 1 * a.val = a.val; omega
  | ⟨1, _⟩ => show 0 + 1 * b.val = b.val; omega

/-- Where the last 512 entries of the 1 × 1024 row sit. -/
theorem emb_cols_hi (u : Fin 1) (b : Fin 512) :
    (r0_10.emb (ix2 u b) : S1x1024.Idx) = ix2 (0 : Fin 1) (⟨b.val + 512, by omega⟩ : Fin 1024) := by
  funext ax; apply Fin.ext
  match ax with
  | ⟨0, _⟩ => show 0 + 1 * u.val = 0; omega
  | ⟨1, _⟩ => show 512 + 1 * b.val = b.val + 512; omega

/-- Where the first 512 entries sit. -/
theorem emb_cols_lo (u : Fin 1) (b : Fin 512) :
    (r0_7.emb (ix2 u b) : S1x1024.Idx) = ix2 (0 : Fin 1) (⟨b.val, by omega⟩ : Fin 1024) := by
  funext ax; apply Fin.ext
  match ax with
  | ⟨0, _⟩ => show 0 + 1 * u.val = 0; omega
  | ⟨1, _⟩ => show 0 + 1 * b.val = b.val; omega

/-- The read output block, entry (r, q): the kernel's arrangement of the read value for the hidden row of row r. -/
theorem out12_apply (x0 : Vec Ideal S360x1024 .f32) (x1 : Vec Ideal S512x512 .f32) (x2 : Vec Ideal S360x512 .f32) (x3 : Vec Ideal S512 .f32)
    (x4 : Vec Ideal S512x512 .f32) (x5 : Vec Ideal S512 .f32) (x6 : Vec Ideal S512x512 .f32) (x7 : Vec Ideal S512 .f32)
    (x8 : Vec Ideal S1x512 .f32) (x9 : Vec Ideal S1 .f32) (r : Fin 1024) (q : Fin 512) :
    out0_12 x0 x1 x2 x3 x4 x5 x6 x7 x8 x9 (ix2 r q) = ppK (mat x1) (hrowB x0 x2 x3 x4 x5 x6 x7 r) q := by
  unfold out0_12
  simp only [View.ld_unit_zero (S := S512x512) hz2, View.ld_unit_zero (S := S360x512) hz2, View.ld_unit_zero (S := S512) hz1]
  refine (View.canon_apply_of_pieces
    (fun y : S1024x512.Idx => ppK (mat x1) (hrowB x0 x2 x3 x4 x5 x6 x7 (y 0)) (y 1)) _ ?_ (ix2 r q) (cover0_12 _ _ _)).trans rfl
  intro pc hpc x
  simp only [List.mem_cons, List.not_mem_nil, or_false] at hpc
  rcases hpc with rfl | rfl
  · obtain ⟨a, b, rfl⟩ : ∃ (a b : Fin 512), x = ix2 a b := ⟨x 0, x 1, eq_ix2 x⟩
    show k0_pay3 x1 x7 _ (ix2 a b)
      = ppK (mat x1) (hrowB x0 x2 x3 x4 x5 x6 x7 (r0_9.emb (ix2 a b) 0)) (r0_9.emb (ix2 a b) 1)
    rw [emb_rows_hi a b]
    refine (pay3_apply x1 x7 _ a b).trans ?_
    rw [row_hi x0 x1 x2 x3 x4 x5 x6 x7 x8 x9 a]
  · obtain ⟨a, b, rfl⟩ : ∃ (a b : Fin 512), x = ix2 a b := ⟨x 0, x 1, eq_ix2 x⟩
    show k0_pay10 x1 _ _ (ix2 a b)
      = ppK (mat x1) (hrowB x0 x2 x3 x4 x5 x6 x7 (r0_6.emb (ix2 a b) 0)) (r0_6.emb (ix2 a b) 1)
    rw [emb_rows_lo a b]
    refine (pay10_apply x1 _ _ (fun p j => pay8_apply x1 x2 x3 x4 x5 x6 x7 _ p j) a b).trans ?_
    rw [row_lo x0 x1 x2 x3 x4 x5 x6 x7 x8 x9 a]

/-- The un-read output block, entry (r, q). -/
theorem out11_apply (x0 : Vec Ideal S360x1024 .f32) (x1 : Vec Ideal S512x512 .f32) (x2 : Vec Ideal S360x512 .f32) (x3 : Vec Ideal S512 .f32)
    (x4 : Vec Ideal S512x512 .f32) (x5 : Vec Ideal S512 .f32) (x6 : Vec Ideal S512x512 .f32) (x7 : Vec Ideal S512 .f32)
    (x8 : Vec Ideal S1x512 .f32) (x9 : Vec Ideal S1 .f32) (r : Fin 1024) (q : Fin 512) :
    out0_11 x0 x1 x2 x3 x4 x5 x6 x7 x8 x9 (ix2 r q) = pnK (mat x1) (hrowB x0 x2 x3 x4 x5 x6 x7 r) q := by
  unfold out0_11
  simp only [View.ld_unit_zero (S := S512x512) hz2, View.ld_unit_zero (S := S360x512) hz2, View.ld_unit_zero (S := S512) hz1]
  refine (View.canon_apply_of_pieces
    (fun y : S1024x512.Idx => pnK (mat x1) (hrowB x0 x2 x3 x4 x5 x6 x7 (y 0)) (y 1)) _ ?_ (ix2 r q) (cover0_11 _ _ _)).trans rfl
  intro pc hpc x
  simp only [List.mem_cons, List.not_mem_nil, or_false] at hpc
  rcases hpc with rfl | rfl
  · obtain ⟨a, b, rfl⟩ : ∃ (a b : Fin 512), x = ix2 a b := ⟨x 0, x 1, eq_ix2 x⟩
    show k0_pay4 x1 x7 _ (ix2 a b)
      = pnK (mat x1) (hrowB x0 x2 x3 x4 x5 x6 x7 (r0_9.emb (ix2 a b) 0)) (r0_9.emb (ix2 a b) 1)
    rw [emb_rows_hi a b]
    refine (pay4_apply x1 x7 _ a b).trans ?_
    rw [row_hi x0 x1 x2 x3 x4 x5 x6 x7 x8 x9 a]
  · obtain ⟨a, b, rfl⟩ : ∃ (a b : Fin 512), x = ix2 a b := ⟨x 0, x 1, eq_ix2 x⟩
    show k0_pay11 x1 _ _ (ix2 a b)
      = pnK (mat x1) (hrowB x0 x2 x3 x4 x5 x6 x7 (r0_6.emb (ix2 a b) 0)) (r0_6.emb (ix2 a b) 1)
    rw [emb_rows_lo a b]
    refine (pay11_apply x1 _ _ (fun p j => pay9_apply x1 x2 x3 x4 x5 x6 x7 _ p j) a b).trans ?_
    rw [row_lo x0 x1 x2 x3 x4 x5 x6 x7 x8 x9 a]

/-- The prediction row, entry (0, r): the prediction for the hidden row of staged column r. -/
theorem out10_apply (x0 : Vec Ideal S360x1024 .f32) (x1 : Vec Ideal S512x512 .f32) (x2 : Vec Ideal S360x512 .f32) (x3 : Vec Ideal S512 .f32)
    (x4 : Vec Ideal S512x512 .f32) (x5 : Vec Ideal S512 .f32) (x6 : Vec Ideal S512x512 .f32) (x7 : Vec Ideal S512 .f32)
    (x8 : Vec Ideal S1x512 .f32) (x9 : Vec Ideal S1 .f32) (r : Fin 1024) :
    out0_10 x0 x1 x2 x3 x4 x5 x6 x7 x8 x9 (ix2 (0 : Fin 1) r)
      = predK (fun c => x8 (ix2 (0 : Fin 1) c)) (x9 (ix1 (0 : Fin 1))) (hrowB x0 x2 x3 x4 x5 x6 x7 r) := by
  unfold out0_10
  simp only [View.ld_unit_zero (S := S512x512) hz2, View.ld_unit_zero (S := S360x512) hz2, View.ld_unit_zero (S := S512) hz1,
    View.ld_unit_zero (S := S1x512) hz2, View.ld_unit_zero (S := S1) hz1]
  have hw : (fun c : Fin 512 => k0_pay6 x8 (ix2 (0 : Fin 1) c)) = fun c => x8 (ix2 (0 : Fin 1) c) :=
    funext fun c => pay6_apply x8 c
  refine (View.canon_apply_of_pieces
    (fun y : S1x1024.Idx => predK (fun c => x8 (ix2 (0 : Fin 1) c)) (x9 (ix1 (0 : Fin 1))) (hrowB x0 x2 x3 x4 x5 x6 x7 (y 1))) _ ?_
    (ix2 (0 : Fin 1) r) (cover0_10 _ _ _)).trans rfl
  intro pc hpc x
  simp only [List.mem_cons, List.not_mem_nil, or_false] at hpc
  rcases hpc with rfl | rfl
  · obtain ⟨u, b, rfl⟩ : ∃ (u : Fin 1) (b : Fin 512), x = ix2 u b := ⟨x 0, x 1, eq_ix2 x⟩
    obtain rfl : u = 0 := Subsingleton.elim _ _
    show k0_pay5 x7 (k0_pay6 x8) x9 _ (ix2 (0 : Fin 1) b)
      = predK (fun c => x8 (ix2 (0 : Fin 1) c)) (x9 (ix1 (0 : Fin 1))) (hrowB x0 x2 x3 x4 x5 x6 x7 (r0_10.emb (ix2 (0 : Fin 1) b) 1))
    rw [emb_cols_hi 0 b]
    refine (pay5_apply x7 (k0_pay6 x8) x9 _ b).trans ?_
    rw [row_hi x0 x1 x2 x3 x4 x5 x6 x7 x8 x9 b, hw]
  · obtain ⟨u, b, rfl⟩ : ∃ (u : Fin 1) (b : Fin 512), x = ix2 u b := ⟨x 0, x 1, eq_ix2 x⟩
    obtain rfl : u = 0 := Subsingleton.elim _ _
    show k0_pay12 (k0_pay6 x8) x9 _ (ix2 (0 : Fin 1) b)
      = predK (fun c => x8 (ix2 (0 : Fin 1) c)) (x9 (ix1 (0 : Fin 1))) (hrowB x0 x2 x3 x4 x5 x6 x7 (r0_7.emb (ix2 (0 : Fin 1) b) 1))
    rw [emb_cols_lo 0 b]
    refine (pay12_apply (k0_pay6 x8) x9 _ b).trans ?_
    rw [row_lo x0 x1 x2 x3 x4 x5 x6 x7 x8 x9 b, hw]

end Cert.KernelIdeal.KVal

end
-- ==== Proof.KernelArrays.lean ====
/-
  The arrays after the kernel's run, each as one function of the arrays the region finds.

  Point t of the 16-point grid stages columns 1024 t … 1024 t + 1023 of the transposed input and every other operand
  whole, and writes back rows 1024 t … 1024 t + 1023 of the two 16384 × 512 results and entries 1024 t … of the
  1 × 16384 prediction row. Row i of a result therefore depends on column i of the transposed input only, and the
  sixteen blocks tile each result array.
-/
import proofs.«138801_g72645076844940_cont_9to1_m_388_22_alg».proof.Proof.Gen.KernelIdeal.Frame
import proofs.«138801_g72645076844940_cont_9to1_m_388_22_alg».proof.Proof.KernelBlock
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KArr

open Cert.KernelIdeal Cert.KernelIdeal.Gen Cert.KernelIdeal.KVal Cert.Spec

variable (m : (ℓ : Loc nD τ sig) → Buf (Elt Ideal) ℓ) (ρ : Dev nD → PrngReg)

/-! ## The arrays the region finds, by coordinates -/

/-- The transposed input: entry (d, i). -/
abbrev aXT (c : Dev nD) : Fin 360 → Fin 16384 → EReal := fun d i => (V m c main_call0_v0 : S360x16384.Idx → EReal) (ix2 d i)
/-- The memory. -/
abbrev aK (c : Dev nD) : Fin 512 → Fin 512 → EReal := fun j q => (V m c main_arg1 : S512x512.Idx → EReal) (ix2 j q)
abbrev aW0 (c : Dev nD) : Fin 360 → Fin 512 → EReal := fun d q => (V m c main_arg2 : S360x512.Idx → EReal) (ix2 d q)
abbrev ab0 (c : Dev nD) : Fin 512 → EReal := fun q => (V m c main_arg3 : S512.Idx → EReal) (ix1 q)
abbrev aW1 (c : Dev nD) : Fin 512 → Fin 512 → EReal := fun k q => (V m c main_arg4 : S512x512.Idx → EReal) (ix2 k q)
abbrev ab1 (c : Dev nD) : Fin 512 → EReal := fun q => (V m c main_arg5 : S512.Idx → EReal) (ix1 q)
abbrev aW2 (c : Dev nD) : Fin 512 → Fin 512 → EReal := fun k q => (V m c main_arg6 : S512x512.Idx → EReal) (ix2 k q)
abbrev ab2 (c : Dev nD) : Fin 512 → EReal := fun q => (V m c main_arg7 : S512.Idx → EReal) (ix1 q)
/-- The transposed prediction weights, a 1 × 512 row: entry (0, q). -/
abbrev aWdT (c : Dev nD) : Fin 512 → EReal := fun q => (V m c main_call0_v1 : S1x512.Idx → EReal) (ix2 (0 : Fin 1) q)
abbrev abd (c : Dev nD) : EReal := (V m c main_arg9 : S1.Idx → EReal) (ix1 (0 : Fin 1))

/-- The hidden row of input row i. -/
def hrowA (c : Dev nD) (i : Fin 16384) : Fin 512 → EReal :=
  hid (aW0 m c) (ab0 m c) (aW1 m c) (ab1 m c) (aW2 m c) (ab2 m c) (fun d => aXT m c d i)

/-! ## Each window's block at a point, by coordinates -/

theorem N16 : cfg0.N = 16 := N_0

/-- Global column of local column r at point t. -/
abbrev gcol (t : Fin cfg0.N) (r : Fin 1024) : Fin 16384 := ⟨t.val * 1024 + r.val, by have := t.isLt; have := r.isLt; have := N16; omega⟩

theorem iblk0_apply (c : Dev nD) (t : Fin cfg0.N) (d : Fin 360) (r : Fin 1024) :
    (iblk m c 0 t : Vec Ideal S360x1024 .f32) (ix2 d r) = aXT m c d (gcol t r) := by
  have hi : win0_0.index t 0 = 0 ∧ win0_0.index t 1 = t.val :=
    (by decide +kernel : ∀ t : Fin grid0.N, win0_0.index t 0 = 0 ∧ win0_0.index t 1 = t.val) t
  unfold iblk
  rw [View.read_apply]
  show V m c main_call0_v0 _ = V m c main_call0_v0 _
  congr 1
  funext a; apply Fin.ext
  match a with
  | ⟨0, _⟩ => show win0_0.index t 0 * 360 + 1 * d.val = d.val; rw [hi.1]; omega
  | ⟨1, _⟩ => show win0_0.index t 1 * 1024 + 1 * r.val = t.val * 1024 + r.val; rw [hi.2]; omega

theorem iblk1_apply (c : Dev nD) (t : Fin cfg0.N) (p : Fin 512) (q : Fin 512) :
    (iblk m c 1 t : Vec Ideal S512x512 .f32) (ix2 p q) = aK m c p q := by
  have hi : win0_1.index t 0 = 0 ∧ win0_1.index t 1 = 0 :=
    (by decide +kernel : ∀ t : Fin grid0.N, win0_1.index t 0 = 0 ∧ win0_1.index t 1 = 0) t
  unfold iblk
  rw [View.read_apply]
  show V m c main_arg1 _ = V m c main_arg1 _
  congr 1
  funext a; apply Fin.ext
  match a with
  | ⟨0, _⟩ => show win0_1.index t 0 * 512 + 1 * p.val = p.val; rw [hi.1]; omega
  | ⟨1, _⟩ => show win0_1.index t 1 * 512 + 1 * q.val = q.val; rw [hi.2]; omega

theorem iblk2_apply (c : Dev nD) (t : Fin cfg0.N) (p : Fin 360) (q : Fin 512) :
    (iblk m c 2 t : Vec Ideal S360x512 .f32) (ix2 p q) = aW0 m c p q := by
  have hi : win0_2.index t 0 = 0 ∧ win0_2.index t 1 = 0 :=
    (by decide +kernel : ∀ t : Fin grid0.N, win0_2.index t 0 = 0 ∧ win0_2.index t 1 = 0) t
  unfold iblk
  rw [View.read_apply]
  show V m c main_arg2 _ = V m c main_arg2 _
  congr 1
  funext a; apply Fin.ext
  match a with
  | ⟨0, _⟩ => show win0_2.index t 0 * 360 + 1 * p.val = p.val; rw [hi.1]; omega
  | ⟨1, _⟩ => show win0_2.index t 1 * 512 + 1 * q.val = q.val; rw [hi.2]; omega

theorem iblk3_apply (c : Dev nD) (t : Fin cfg0.N) (q : Fin 512) :
    (iblk m c 3 t : Vec Ideal S512 .f32) (ix1 q) = ab0 m c q := by
  have hi : win0_3.index t 0 = 0 := (by decide +kernel : ∀ t : Fin grid0.N, win0_3.index t 0 = 0) t
  unfold iblk
  rw [View.read_apply]
  show V m c main_arg3 _ = V m c main_arg3 _
  congr 1
  funext a; apply Fin.ext
  match a with
  | ⟨0, _⟩ => show win0_3.index t 0 * 512 + 1 * q.val = q.val; rw [hi]; omega

theorem iblk4_apply (c : Dev nD) (t : Fin cfg0.N) (p : Fin 512) (q : Fin 512) :
    (iblk m c 4 t : Vec Ideal S512x512 .f32) (ix2 p q) = aW1 m c p q := by
  have hi : win0_4.index t 0 = 0 ∧ win0_4.index t 1 = 0 :=
    (by decide +kernel : ∀ t : Fin grid0.N, win0_4.index t 0 = 0 ∧ win0_4.index t 1 = 0) t
  unfold iblk
  rw [View.read_apply]
  show V m c main_arg4 _ = V m c main_arg4 _
  congr 1
  funext a; apply Fin.ext
  match a with
  | ⟨0, _⟩ => show win0_4.index t 0 * 512 + 1 * p.val = p.val; rw [hi.1]; omega
  | ⟨1, _⟩ => show win0_4.index t 1 * 512 + 1 * q.val = q.val; rw [hi.2]; omega

theorem iblk5_apply (c : Dev nD) (t : Fin cfg0.N) (q : Fin 512) :
    (iblk m c 5 t : Vec Ideal S512 .f32) (ix1 q) = ab1 m c q := by
  have hi : win0_5.index t 0 = 0 := (by decide +kernel : ∀ t : Fin grid0.N, win0_5.index t 0 = 0) t
  unfold iblk
  rw [View.read_apply]
  show V m c main_arg5 _ = V m c main_arg5 _
  congr 1
  funext a; apply Fin.ext
  match a with
  | ⟨0, _⟩ => show win0_5.index t 0 * 512 + 1 * q.val = q.val; rw [hi]; omega

theorem iblk6_apply (c : Dev nD) (t : Fin cfg0.N) (p : Fin 512) (q : Fin 512) :
    (iblk m c 6 t : Vec Ideal S512x512 .f32) (ix2 p q) = aW2 m c p q := by
  have hi : win0_6.index t 0 = 0 ∧ win0_6.index t 1 = 0 :=
    (by decide +kernel : ∀ t : Fin grid0.N, win0_6.index t 0 = 0 ∧ win0_6.index t 1 = 0) t
  unfold iblk
  rw [View.read_apply]
  show V m c main_arg6 _ = V m c main_arg6 _
  congr 1
  funext a; apply Fin.ext
  match a with
  | ⟨0, _⟩ => show win0_6.index t 0 * 512 + 1 * p.val = p.val; rw [hi.1]; omega
  | ⟨1, _⟩ => show win0_6.index t 1 * 512 + 1 * q.val = q.val; rw [hi.2]; omega

theorem iblk7_apply (c : Dev nD) (t : Fin cfg0.N) (q : Fin 512) :
    (iblk m c 7 t : Vec Ideal S512 .f32) (ix1 q) = ab2 m c q := by
  have hi : win0_7.index t 0 = 0 := (by decide +kernel : ∀ t : Fin grid0.N, win0_7.index t 0 = 0) t
  unfold iblk
  rw [View.read_apply]
  show V m c main_arg7 _ = V m c main_arg7 _
  congr 1
  funext a; apply Fin.ext
  match a with
  | ⟨0, _⟩ => show win0_7.index t 0 * 512 + 1 * q.val = q.val; rw [hi]; omega

theorem iblk8_apply (c : Dev nD) (t : Fin cfg0.N) (q : Fin 512) :
    (iblk m c 8 t : Vec Ideal S1x512 .f32) (ix2 (0 : Fin 1) q) = aWdT m c q := by
  have hi : win0_8.index t 0 = 0 ∧ win0_8.index t 1 = 0 :=
    (by decide +kernel : ∀ t : Fin grid0.N, win0_8.index t 0 = 0 ∧ win0_8.index t 1 = 0) t
  unfold iblk
  rw [View.read_apply]
  show V m c main_call0_v1 _ = V m c main_call0_v1 _
  congr 1
  funext a; apply Fin.ext
  match a with
  | ⟨0, _⟩ => show win0_8.index t 0 * 1 + 1 * 0 = 0; rw [hi.1]
  | ⟨1, _⟩ => show win0_8.index t 1 * 512 + 1 * q.val = q.val; rw [hi.2]; omega

theorem iblk9_apply (c : Dev nD) (t : Fin cfg0.N) :
    (iblk m c 9 t : Vec Ideal S1 .f32) (ix1 (0 : Fin 1)) = abd m c := by
  have hi : win0_9.index t 0 = 0 := (by decide +kernel : ∀ t : Fin grid0.N, win0_9.index t 0 = 0) t
  unfold iblk
  rw [View.read_apply]
  show V m c main_arg9 _ = V m c main_arg9 _
  congr 1
  funext a; apply Fin.ext
  match a with
  | ⟨0, _⟩ => show win0_9.index t 0 * 1 + 1 * 0 = 0; rw [hi]

/-- The hidden row of local row r of point t's blocks is the hidden row of input row 1024 t + r. -/
theorem blockRow (c : Dev nD) (t : Fin cfg0.N) (r : Fin 1024) :
    hrowB (iblk m c 0 t) (iblk m c 2 t) (iblk m c 3 t) (iblk m c 4 t) (iblk m c 5 t) (iblk m c 6 t) (iblk m c 7 t) r
      = hrowA m c (gcol t r) := by
  have e0 : (fun d : Fin 360 => (iblk m c 0 t : Vec Ideal S360x1024 .f32) (ix2 d r)) = fun d => aXT m c d (gcol t r) :=
    funext fun d => iblk0_apply m c t d r
  have e2 : mat (iblk m c 2 t : Vec Ideal S360x512 .f32) = aW0 m c := funext fun p => funext fun q => iblk2_apply m c t p q
  have e3 : vec (iblk m c 3 t : Vec Ideal S512 .f32) = ab0 m c := funext fun q => iblk3_apply m c t q
  have e4 : mat (iblk m c 4 t : Vec Ideal S512x512 .f32) = aW1 m c := funext fun p => funext fun q => iblk4_apply m c t p q
  have e5 : vec (iblk m c 5 t : Vec Ideal S512 .f32) = ab1 m c := funext fun q => iblk5_apply m c t q
  have e6 : mat (iblk m c 6 t : Vec Ideal S512x512 .f32) = aW2 m c := funext fun p => funext fun q => iblk6_apply m c t p q
  have e7 : vec (iblk m c 7 t : Vec Ideal S512 .f32) = ab2 m c := funext fun q => iblk7_apply m c t q
  show hid (mat (iblk m c 2 t : Vec Ideal S360x512 .f32)) (vec (iblk m c 3 t : Vec Ideal S512 .f32))
      (mat (iblk m c 4 t : Vec Ideal S512x512 .f32)) (vec (iblk m c 5 t : Vec Ideal S512 .f32))
      (mat (iblk m c 6 t : Vec Ideal S512x512 .f32)) (vec (iblk m c 7 t : Vec Ideal S512 .f32))
      (fun d : Fin 360 => (iblk m c 0 t : Vec Ideal S360x1024 .f32) (ix2 d r)) = hrowA m c (gcol t r)
  rw [e0, e2, e3, e4, e5, e6, e7]
  rfl

/-! ## The three result arrays -/

/-- The read result: entry (i, q). -/
def GA12 (c : Dev nD) : S16384x512.Idx → EReal := fun y => ppK (aK m c) (hrowA m c (y 0)) (y 1)
/-- The un-read result: entry (i, q). -/
def GA11 (c : Dev nD) : S16384x512.Idx → EReal := fun y => pnK (aK m c) (hrowA m c (y 0)) (y 1)
/-- The prediction row: entry (0, i). -/
def GA10 (c : Dev nD) : S1x16384.Idx → EReal := fun y => predK (aWdT m c) (abd m c) (hrowA m c (y 1))

theorem flushed12_eq (c : Dev nD) (t : Fin cfg0.N) :
    (dats m 0 c).flushed 12 t = ((cfg0.win 12).blk t).view.read (Elt Ideal) (GA12 m c) := by
  show (cfg0.win 12).cut (grid0.coords t) ((dats m 0 c).after 12 t) = _
  rw [after0_12]
  refine funext fun (j : S1024x512.Idx) => ?_
  obtain ⟨r, q, rfl⟩ : ∃ (r : Fin 1024) (q : Fin 512), j = ix2 r q := ⟨j 0, j 1, eq_ix2 j⟩
  have hi : win0_12.index t 0 = t.val ∧ win0_12.index t 1 = 0 :=
    (by decide +kernel : ∀ t : Fin grid0.N, win0_12.index t 0 = t.val ∧ win0_12.index t 1 = 0) t
  have he : (((cfg0.win 12).blk t).view.emb (ix2 r q) : S16384x512.Idx) = ix2 (gcol t r) q := by
    funext a; apply Fin.ext
    match a with
    | ⟨0, _⟩ => show win0_12.index t 0 * 1024 + 1 * r.val = t.val * 1024 + r.val; rw [hi.1]; omega
    | ⟨1, _⟩ => show win0_12.index t 1 * 512 + 1 * q.val = q.val; rw [hi.2]; omega
  rw [View.read_apply, he]
  refine (out12_apply (iblk m c 0 t) (iblk m c 1 t) (iblk m c 2 t) (iblk m c 3 t) (iblk m c 4 t) (iblk m c 5 t) (iblk m c 6 t)
    (iblk m c 7 t) (iblk m c 8 t) (iblk m c 9 t) r q).trans ?_
  have e1 : mat (iblk m c 1 t : Vec Ideal S512x512 .f32) = aK m c := funext fun p => funext fun q => iblk1_apply m c t p q
  rw [blockRow m c t r, e1]
  rfl

/-- The sixteen row blocks tile the array. -/
theorem cover12 (c : Dev nD) (i : S16384x512.Idx) :
    ∃ t : Fin cfg0.N, (cfg0.win 12).flush t = true ∧ i ∈ ((cfg0.win 12).blk t).view.set := by
  have hi0 : (i 0).val < 16384 := (i 0).isLt
  have hi1 : (i 1).val < 512 := (i 1).isLt
  let t : Fin cfg0.N := ⟨(i 0).val / 1024, by rw [N16]; omega⟩
  have hidx : win0_12.index t 0 = t.val ∧ win0_12.index t 1 = 0 :=
    (by decide +kernel : ∀ t : Fin grid0.N, win0_12.index t 0 = t.val ∧ win0_12.index t 1 = 0) t
  refine ⟨t, flush0_12 t, ?_⟩
  show i ∈ ((View.whole main_v0_2).slice (win0_12.rect t)).set
  rw [View.set_slice_whole, Rect.mem_set_unit]
  intro a
  match a with
  | ⟨0, _⟩ =>
    show win0_12.index t 0 * 1024 ≤ (i 0).val ∧ (i 0).val < win0_12.index t 0 * 1024 + 1024
    rw [hidx.1]; show (i 0).val / 1024 * 1024 ≤ (i 0).val ∧ (i 0).val < (i 0).val / 1024 * 1024 + 1024; omega
  | ⟨1, _⟩ =>
    show win0_12.index t 1 * 512 ≤ (i 1).val ∧ (i 1).val < win0_12.index t 1 * 512 + 512
    rw [hidx.2]; omega

/-- The whole array after the run. -/
theorem final12 (c : Dev nD) : (dats m 0 c).arrAt 12 cfg0.N = GA12 m c :=
  (dats m 0 c).arrAt_eq_of_cover 12 (GA12 m c) (fun t _ => flushed12_eq m c t) (cover12 c)

theorem flushed11_eq (c : Dev nD) (t : Fin cfg0.N) :
    (dats m 0 c).flushed 11 t = ((cfg0.win 11).blk t).view.read (Elt Ideal) (GA11 m c) := by
  show (cfg0.win 11).cut (grid0.coords t) ((dats m 0 c).after 11 t) = _
  rw [after0_11]
  refine funext fun (j : S1024x512.Idx) => ?_
  obtain ⟨r, q, rfl⟩ : ∃ (r : Fin 1024) (q : Fin 512), j = ix2 r q := ⟨j 0, j 1, eq_ix2 j⟩
  have hi : win0_11.index t 0 = t.val ∧ win0_11.index t 1 = 0 :=
    (by decide +kernel : ∀ t : Fin grid0.N, win0_11.index t 0 = t.val ∧ win0_11.index t 1 = 0) t
  have he : (((cfg0.win 11).blk t).view.emb (ix2 r q) : S16384x512.Idx) = ix2 (gcol t r) q := by
    funext a; apply Fin.ext
    match a with
    | ⟨0, _⟩ => show win0_11.index t 0 * 1024 + 1 * r.val = t.val * 1024 + r.val; rw [hi.1]; omega
    | ⟨1, _⟩ => show win0_11.index t 1 * 512 + 1 * q.val = q.val; rw [hi.2]; omega
  rw [View.read_apply, he]
  refine (out11_apply (iblk m c 0 t) (iblk m c 1 t) (iblk m c 2 t) (iblk m c 3 t) (iblk m c 4 t) (iblk m c 5 t) (iblk m c 6 t)
    (iblk m c 7 t) (iblk m c 8 t) (iblk m c 9 t) r q).trans ?_
  have e1 : mat (iblk m c 1 t : Vec Ideal S512x512 .f32) = aK m c := funext fun p => funext fun q => iblk1_apply m c t p q
  rw [blockRow m c t r, e1]
  rfl

/-- The sixteen row blocks tile the array. -/
theorem cover11 (c : Dev nD) (i : S16384x512.Idx) :
    ∃ t : Fin cfg0.N, (cfg0.win 11).flush t = true ∧ i ∈ ((cfg0.win 11).blk t).view.set := by
  have hi0 : (i 0).val < 16384 := (i 0).isLt
  have hi1 : (i 1).val < 512 := (i 1).isLt
  let t : Fin cfg0.N := ⟨(i 0).val / 1024, by rw [N16]; omega⟩
  have hidx : win0_11.index t 0 = t.val ∧ win0_11.index t 1 = 0 :=
    (by decide +kernel : ∀ t : Fin grid0.N, win0_11.index t 0 = t.val ∧ win0_11.index t 1 = 0) t
  refine ⟨t, flush0_11 t, ?_⟩
  show i ∈ ((View.whole main_v0_1).slice (win0_11.rect t)).set
  rw [View.set_slice_whole, Rect.mem_set_unit]
  intro a
  match a with
  | ⟨0, _⟩ =>
    show win0_11.index t 0 * 1024 ≤ (i 0).val ∧ (i 0).val < win0_11.index t 0 * 1024 + 1024
    rw [hidx.1]; show (i 0).val / 1024 * 1024 ≤ (i 0).val ∧ (i 0).val < (i 0).val / 1024 * 1024 + 1024; omega
  | ⟨1, _⟩ =>
    show win0_11.index t 1 * 512 ≤ (i 1).val ∧ (i 1).val < win0_11.index t 1 * 512 + 512
    rw [hidx.2]; omega

/-- The whole array after the run. -/
theorem final11 (c : Dev nD) : (dats m 0 c).arrAt 11 cfg0.N = GA11 m c :=
  (dats m 0 c).arrAt_eq_of_cover 11 (GA11 m c) (fun t _ => flushed11_eq m c t) (cover11 c)

theorem flushed10_eq (c : Dev nD) (t : Fin cfg0.N) :
    (dats m 0 c).flushed 10 t = ((cfg0.win 10).blk t).view.read (Elt Ideal) (GA10 m c) := by
  show (cfg0.win 10).cut (grid0.coords t) ((dats m 0 c).after 10 t) = _
  rw [after0_10]
  refine funext fun (j : S1x1024.Idx) => ?_
  obtain ⟨u, r, rfl⟩ : ∃ (u : Fin 1) (r : Fin 1024), j = ix2 u r := ⟨j 0, j 1, eq_ix2 j⟩
  obtain rfl : u = 0 := Subsingleton.elim _ _
  have hi : win0_10.index t 0 = 0 ∧ win0_10.index t 1 = t.val :=
    (by decide +kernel : ∀ t : Fin grid0.N, win0_10.index t 0 = 0 ∧ win0_10.index t 1 = t.val) t
  have he : (((cfg0.win 10).blk t).view.emb (ix2 (0 : Fin 1) r) : S1x16384.Idx) = ix2 (0 : Fin 1) (gcol t r) := by
    funext a; apply Fin.ext
    match a with
    | ⟨0, _⟩ => show win0_10.index t 0 * 1 + 1 * 0 = 0; rw [hi.1]
    | ⟨1, _⟩ => show win0_10.index t 1 * 1024 + 1 * r.val = t.val * 1024 + r.val; rw [hi.2]; omega
  rw [View.read_apply, he]
  refine (out10_apply (iblk m c 0 t) (iblk m c 1 t) (iblk m c 2 t) (iblk m c 3 t) (iblk m c 4 t) (iblk m c 5 t) (iblk m c 6 t)
    (iblk m c 7 t) (iblk m c 8 t) (iblk m c 9 t) r).trans ?_
  have e8 : (fun q : Fin 512 => (iblk m c 8 t : Vec Ideal S1x512 .f32) (ix2 (0 : Fin 1) q)) = aWdT m c :=
    funext fun q => iblk8_apply m c t q
  rw [blockRow m c t r, e8, iblk9_apply m c t]
  rfl

/-- The sixteen column blocks tile the prediction row. -/
theorem cover10 (c : Dev nD) (i : S1x16384.Idx) :
    ∃ t : Fin cfg0.N, (cfg0.win 10).flush t = true ∧ i ∈ ((cfg0.win 10).blk t).view.set := by
  have hi0 : (i 0).val < 1 := (i 0).isLt
  have hi1 : (i 1).val < 16384 := (i 1).isLt
  let t : Fin cfg0.N := ⟨(i 1).val / 1024, by rw [N16]; omega⟩
  have hidx : win0_10.index t 0 = 0 ∧ win0_10.index t 1 = t.val :=
    (by decide +kernel : ∀ t : Fin grid0.N, win0_10.index t 0 = 0 ∧ win0_10.index t 1 = t.val) t
  refine ⟨t, flush0_10 t, ?_⟩
  show i ∈ ((View.whole main_call0_v2_0).slice (win0_10.rect t)).set
  rw [View.set_slice_whole, Rect.mem_set_unit]
  intro a
  match a with
  | ⟨0, _⟩ =>
    show win0_10.index t 0 * 1 ≤ (i 0).val ∧ (i 0).val < win0_10.index t 0 * 1 + 1
    rw [hidx.1]; omega
  | ⟨1, _⟩ =>
    show win0_10.index t 1 * 1024 ≤ (i 1).val ∧ (i 1).val < win0_10.index t 1 * 1024 + 1024
    rw [hidx.2]; show (i 1).val / 1024 * 1024 ≤ (i 1).val ∧ (i 1).val < (i 1).val / 1024 * 1024 + 1024; omega

theorem final10 (c : Dev nD) : (dats m 0 c).arrAt 10 cfg0.N = GA10 m c :=
  (dats m 0 c).arrAt_eq_of_cover 10 (GA10 m c) (fun t _ => flushed10_eq m c t) (cover10 c)

/-! ## The host operations around the region -/

/-- The region finds the input transposed. -/
theorem aXT_eq (c : Dev nD) (d : Fin 360) (i : Fin 16384) :
    aXT m c d i = (m ((c : Thread nD τ).loc main_arg0) : S16384x360.Idx → EReal) (ix2 i d) := by
  have e : (V m c main_call0_v0 : S360x16384.Idx → EReal)
      = transpose S360x16384 [1, 0] (m ((c : Thread nD τ).loc main_arg0)) transposes_S16384x360_S360x16384_1_0 := by
    show StableHlo.after hostOps0 (fun b => m (c, b)) (Proc.devRef .tc main_call0_v0) = _
    after_results; rfl
  show (V m c main_call0_v0 : S360x16384.Idx → EReal) (ix2 d i) = _
  rw [e]
  exact transpose_ix2_apply _ _ d i

/-- … and the prediction weights as a row. -/
theorem aWdT_eq (c : Dev nD) (q : Fin 512) :
    aWdT m c q = (m ((c : Thread nD τ).loc main_arg8) : S512x1.Idx → EReal) (ix2 q (0 : Fin 1)) := by
  have e : (V m c main_call0_v1 : S1x512.Idx → EReal)
      = transpose S1x512 [1, 0] (m ((c : Thread nD τ).loc main_arg8)) transposes_S512x1_S1x512_1_0 := by
    show StableHlo.after hostOps0 (fun b => m (c, b)) (Proc.devRef .tc main_call0_v1) = _
    after_results; rfl
  show (V m c main_call0_v1 : S1x512.Idx → EReal) (ix2 (0 : Fin 1) q) = _
  rw [e]
  exact transpose_ix2_apply _ _ (0 : Fin 1) q

/-- After the region the prediction row is transposed into a column. -/
theorem tail_pred (c : Dev nD) :
    Pipeline.afterTail₀ cfgs (dats m) 0 (V0 m) [hostOps1] c main_v0_0
      = transpose S16384x1 [1, 0] (GA10 m c) transposes_S1x16384_S16384x1_1_0 := by
  unfold Pipeline.afterTail₀
  show StableHlo.after hostOps1 _ (Proc.devRef .tc main_v0_0) = _
  after_results
  have hw := (Pipeline.withArrays_arr spec0 launch0.win.arr_inj c (V0 m c) (fun w => (dats m 0 c).arrAt w cfg0.N) 10).trans
    (final10 m c)
  show transpose S16384x1 [1, 0]
      (Pipeline.withArrays spec0 c (V0 m c) (fun w => (dats m 0 c).arrAt w cfg0.N) (Proc.devRef .tc (Pipeline.arrRef spec0 10))) _ = _
  rw [hw]

/-! ## The arrays the region finds are the arguments -/

theorem aK_eq (c : Dev nD) : aK m c = mat (m ((c : Thread nD τ).loc main_arg1) : S512x512.Idx → EReal) := by
  show (fun j q => (V m c main_arg1 : S512x512.Idx → EReal) (ix2 j q)) = _
  rw [V_main_arg1 m c]
theorem aW0_eq (c : Dev nD) : aW0 m c = mat (m ((c : Thread nD τ).loc main_arg2) : S360x512.Idx → EReal) := by
  show (fun j q => (V m c main_arg2 : S360x512.Idx → EReal) (ix2 j q)) = _
  rw [V_main_arg2 m c]
theorem ab0_eq (c : Dev nD) : ab0 m c = vec (m ((c : Thread nD τ).loc main_arg3) : S512.Idx → EReal) := by
  show (fun q => (V m c main_arg3 : S512.Idx → EReal) (ix1 q)) = _
  rw [V_main_arg3 m c]
theorem aW1_eq (c : Dev nD) : aW1 m c = mat (m ((c : Thread nD τ).loc main_arg4) : S512x512.Idx → EReal) := by
  show (fun j q => (V m c main_arg4 : S512x512.Idx → EReal) (ix2 j q)) = _
  rw [V_main_arg4 m c]
theorem ab1_eq (c : Dev nD) : ab1 m c = vec (m ((c : Thread nD τ).loc main_arg5) : S512.Idx → EReal) := by
  show (fun q => (V m c main_arg5 : S512.Idx → EReal) (ix1 q)) = _
  rw [V_main_arg5 m c]
theorem aW2_eq (c : Dev nD) : aW2 m c = mat (m ((c : Thread nD τ).loc main_arg6) : S512x512.Idx → EReal) := by
  show (fun j q => (V m c main_arg6 : S512x512.Idx → EReal) (ix2 j q)) = _
  rw [V_main_arg6 m c]
theorem ab2_eq (c : Dev nD) : ab2 m c = vec (m ((c : Thread nD τ).loc main_arg7) : S512.Idx → EReal) := by
  show (fun q => (V m c main_arg7 : S512.Idx → EReal) (ix1 q)) = _
  rw [V_main_arg7 m c]
theorem abd_eq (c : Dev nD) : abd m c = (m ((c : Thread nD τ).loc main_arg9) : S1.Idx → EReal) (ix1 (0 : Fin 1)) := by
  show (V m c main_arg9 : S1.Idx → EReal) (ix1 (0 : Fin 1)) = _
  rw [V_main_arg9 m c]

/-- The hidden row of input row i, over the arguments. -/
theorem hrowA_eq (c : Dev nD) (i : Fin 16384) :
    hrowA m c i = hid (mat (m ((c : Thread nD τ).loc main_arg2) : S360x512.Idx → EReal))
      (vec (m ((c : Thread nD τ).loc main_arg3) : S512.Idx → EReal))
      (mat (m ((c : Thread nD τ).loc main_arg4) : S512x512.Idx → EReal))
      (vec (m ((c : Thread nD τ).loc main_arg5) : S512.Idx → EReal))
      (mat (m ((c : Thread nD τ).loc main_arg6) : S512x512.Idx → EReal))
      (vec (m ((c : Thread nD τ).loc main_arg7) : S512.Idx → EReal))
      (fun d => (m ((c : Thread nD τ).loc main_arg0) : S16384x360.Idx → EReal) (ix2 i d)) := by
  unfold hrowA
  rw [aW0_eq, ab0_eq, aW1_eq, ab1_eq, aW2_eq, ab2_eq]
  congr 1
  funext d
  exact aXT_eq m c d i

/-! ## The run, read -/

/-- Every weakly fair execution of the idealized kernel's program ends with the prediction column, the un-read and
    the read result at their functions of the arrays the region finds, and the ten arguments unchanged. -/
theorem run : θ_run defs (onTc (τ := τ) (main (F := Ideal))) ⟨m, fun _ => 0, ρ⟩ fun r => ∀ c : Dev nD,
      r.2.mem ((c.tc : Thread nD τ).loc main_v0_0) = transpose S16384x1 [1, 0] (GA10 m c) transposes_S1x16384_S16384x1_1_0
      ∧ r.2.mem ((c.tc : Thread nD τ).loc main_v0_1) = GA11 m c
      ∧ r.2.mem ((c.tc : Thread nD τ).loc main_v0_2) = GA12 m c
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have h1 : _ := ((h c).1 1).trans (((dats m 0 c).arrAt_in 1 rfl _).trans ((A_eq m c 1).trans (V_main_arg1 m c)))
    ⟨((h c).2 main_v0_0 (Pipeline.mem_restRefs_of main_v0_0 (by decide) (by decide))).trans (tail_pred m c),
      ((h c).1 11).trans (final11 m c),
      ((h c).1 12).trans (final12 m c),
      h1,
      ((h c).2 main_arg0 (Pipeline.mem_restRefs_of main_arg0 (by decide) (by decide))).trans (W_main_arg0 m (dats m) c),
      h1,
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c)))⟩)
    (run_main m ρ)

end Cert.KernelIdeal.KArr

end
-- ==== Proof.RefHid.lean ====
/-
  The reference's hidden activations, entry by entry: row i is the input's row i through three dense layers, each a
  rows-by-columns product plus a bias row, rectified.
-/
import proofs.«138801_g72645076844940_cont_9to1_m_388_22_alg».proof.Proof.Spec
import proofs.«138801_g72645076844940_cont_9to1_m_388_22_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RVal

open Idealize.ShloMosaic Idealize.ShloMosaic.ValueIdx Cert.ReferenceIdeal Cert.ReferenceIdeal.Read Cert.Spec

/-! ### The index maps of the three dense layers at explicit coordinates

Each layer contracts the second axis of its left operand with the first axis of its right operand, and adds a
row vector broadcast along the first axis. At the output position (i, c) and contraction position k the left
operand is read at (i, k), the right operand at (k, c), and the bias at c. -/

private theorem lidx0 (i : Fin 16384) (c : Fin 512) (k : Fin 360) :
    lidx_main_v0 (ix2 i c) k = ix2 i k :=
  funext fun a => Fin.ext (by match a with | ⟨0, _⟩ => rfl | ⟨1, _⟩ => rfl)

private theorem ridx0 (i : Fin 16384) (c : Fin 512) (k : Fin 360) :
    ridx_main_v0 (ix2 i c) k = ix2 k c :=
  funext fun a => Fin.ext (by match a with | ⟨0, _⟩ => rfl | ⟨1, _⟩ => rfl)

private theorem bidx0 (i : Fin 16384) (c : Fin 512) :
    idx_main_v1 (idx_main_v2 (ix2 i c)) = ix1 c :=
  funext fun a => Fin.ext (by match a with | ⟨0, _⟩ => rfl)

private theorem lidx5 (i : Fin 16384) (c : Fin 512) (k : Fin 512) :
    lidx_main_v5 (ix2 i c) k = ix2 i k :=
  funext fun a => Fin.ext (by match a with | ⟨0, _⟩ => rfl | ⟨1, _⟩ => rfl)

private theorem ridx5 (i : Fin 16384) (c : Fin 512) (k : Fin 512) :
    ridx_main_v5 (ix2 i c) k = ix2 k c :=
  funext fun a => Fin.ext (by match a with | ⟨0, _⟩ => rfl | ⟨1, _⟩ => rfl)

private theorem bidx5 (i : Fin 16384) (c : Fin 512) :
    idx_main_v6 (idx_main_v7 (ix2 i c)) = ix1 c :=
  funext fun a => Fin.ext (by match a with | ⟨0, _⟩ => rfl)

private theorem lidx10 (i : Fin 16384) (c : Fin 512) (k : Fin 512) :
    lidx_main_v10 (ix2 i c) k = ix2 i k :=
  funext fun a => Fin.ext (by match a with | ⟨0, _⟩ => rfl | ⟨1, _⟩ => rfl)

private theorem ridx10 (i : Fin 16384) (c : Fin 512) (k : Fin 512) :
    ridx_main_v10 (ix2 i c) k = ix2 k c :=
  funext fun a => Fin.ext (by match a with | ⟨0, _⟩ => rfl | ⟨1, _⟩ => rfl)

private theorem bidx10 (i : Fin 16384) (c : Fin 512) :
    idx_main_v11 (idx_main_v12 (ix2 i c)) = ix1 c :=
  funext fun a => Fin.ext (by match a with | ⟨0, _⟩ => rfl)

/-! ### One layer at a time

The rectifier is the pointwise maximum with the broadcast of the constant 0, that is max(·, 0). -/

/-- First layer: the input row against the first weight matrix, plus the first bias, rectified. -/
private theorem layer1 (x0 : (⟨S16384x360, .f32⟩ : BufTy).Contents (Elt Ideal)) (x2 : (⟨S360x512, .f32⟩ : BufTy).Contents (Elt Ideal)) (x3 : (⟨S512, .f32⟩ : BufTy).Contents (Elt Ideal)) (i : Fin 16384) (c : Fin 512) :
    val_main_v4 (F := Ideal) x0 x2 x3 (ix2 i c)
      = layer (fun d => x0 (ix2 i d)) (mat x2) (vec x3) c := by
  rw [val_main_v4_apply, val_main_v3_apply, val_main_v0_apply, val_main_v2_apply, val_main_v1_apply,
    val_main_call0_v0_apply, val_main_call0_cst_apply]
  simp only [lidx0, ridx0, bidx0, Ideal.addf_def, Ideal.maximumf_def, Ideal.ofBits_def, Ideal.ofBits_zero_f32]
  rfl

/-- Second layer, over the first layer's activations kept as they are. -/
private theorem layer2 (x0 : (⟨S16384x360, .f32⟩ : BufTy).Contents (Elt Ideal)) (x2 : (⟨S360x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (i : Fin 16384) (c : Fin 512) :
    val_main_v9 (F := Ideal) x0 x2 x3 x4 x5 (ix2 i c)
      = layer (fun d => val_main_v4 (F := Ideal) x0 x2 x3 (ix2 i d)) (mat x4) (vec x5) c := by
  rw [val_main_v9_apply, val_main_v8_apply, val_main_v5_apply, val_main_v7_apply, val_main_v6_apply,
    val_main_call1_v0_apply, val_main_call1_cst_apply]
  generalize val_main_v4 (F := Ideal) x0 x2 x3 = a
  simp only [lidx5, ridx5, bidx5, Ideal.addf_def, Ideal.maximumf_def, Ideal.ofBits_def, Ideal.ofBits_zero_f32]
  rfl

/-- Third layer, over the second layer's activations kept as they are. -/
private theorem layer3 (x0 : (⟨S16384x360, .f32⟩ : BufTy).Contents (Elt Ideal)) (x2 : (⟨S360x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (i : Fin 16384) (c : Fin 512) :
    val_main_v14 (F := Ideal) x0 x2 x3 x4 x5 x6 x7 (ix2 i c)
      = layer (fun d => val_main_v9 (F := Ideal) x0 x2 x3 x4 x5 (ix2 i d)) (mat x6) (vec x7) c := by
  rw [val_main_v14_apply, val_main_v13_apply, val_main_v10_apply, val_main_v12_apply, val_main_v11_apply,
    val_main_call2_v0_apply, val_main_call2_cst_apply]
  generalize val_main_v9 (F := Ideal) x0 x2 x3 x4 x5 = a
  simp only [lidx10, ridx10, bidx10, Ideal.addf_def, Ideal.maximumf_def, Ideal.ofBits_def, Ideal.ofBits_zero_f32]
  rfl

/-- The reference's hidden activations, row i: the three-layer hidden row of row i of the input. -/
theorem v14_apply (x0 : (⟨S16384x360, .f32⟩ : BufTy).Contents (Elt Ideal)) (x2 : (⟨S360x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (i : Fin 16384) (c : Fin 512) :
    val_main_v14 (F := Ideal) x0 x2 x3 x4 x5 x6 x7 (ix2 i c)
      = hid (mat x2) (vec x3) (mat x4) (vec x5) (mat x6) (vec x7) (fun d => x0 (ix2 i d)) c := by
  have h1 : (fun d : Fin 512 => val_main_v4 (F := Ideal) x0 x2 x3 (ix2 i d))
      = layer (fun d => x0 (ix2 i d)) (mat x2) (vec x3) :=
    funext fun d => layer1 x0 x2 x3 i d
  have h2 : (fun d : Fin 512 => val_main_v9 (F := Ideal) x0 x2 x3 x4 x5 (ix2 i d))
      = layer (layer (fun d => x0 (ix2 i d)) (mat x2) (vec x3)) (mat x4) (vec x5) :=
    funext fun d => (layer2 x0 x2 x3 x4 x5 i d).trans (by rw [h1])
  refine (layer3 x0 x2 x3 x4 x5 x6 x7 i c).trans ?_
  rw [h2]
  rfl

end Cert.ReferenceIdeal.RVal

end
-- ==== Proof.RefHeads.lean ====
/-
  The reference's three results, entry by entry, over its hidden activations.

  A softmax along a row is computed as written in the reference: the row's maximum (a fold of max from −∞), the
  exponentials of the shifted scores, their sum, the quotient. The read result weights the memory rows by the softmax
  of the scores, the un-read result by the softmax of the scores against (−1)·memory; the prediction is a
  rows-by-column product plus the bias.
-/
import proofs.«138801_g72645076844940_cont_9to1_m_388_22_alg».proof.Proof.Spec
import proofs.«138801_g72645076844940_cont_9to1_m_388_22_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RVal

open Idealize.ShloMosaic Idealize.ShloMosaic.ValueIdx Cert.ReferenceIdeal Cert.ReferenceIdeal.Read Cert.Spec
open Cert.ReferenceIdeal.Gen

/-- Row i of the reference's hidden activations. -/
abbrev hrow (x0 : (⟨S16384x360, .f32⟩ : BufTy).Contents (Elt Ideal)) (x2 : (⟨S360x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (i : Fin 16384) : Fin 512 → EReal :=
  fun c => val_main_v14 (F := Ideal) x0 x2 x3 x4 x5 x6 x7 (ix2 i c)

/-! ### Small facts: the two literals, and the row of a reduced index -/

/-- The bit pattern 0xFF800000 is −∞. -/
private theorem ofBits_ninf : (Ideal.ofBits .f32 0xFF800000#32 : EReal) = ⊥ := by
  simp [Ideal.ofBits, Ideal.ieee]

/-- The bit pattern 0xBF800000 is −1. -/
private theorem ofBits_negOne : (Ideal.ofBits .f32 0xBF800000#32 : EReal) = -1 :=
  IdealRules.sign_bit.ideal_negOnePat .f32

/-- Row index i with column k put back is (i, k). -/
private theorem lift_row (h : S16384x512.Reduces [1] S16384) (i : Fin 16384) (k : Fin (S16384x512.size 1)) :
    h.lift (ix1 i) k = ix2 i (⟨k.val, k.isLt⟩ : Fin 512) := by
  funext c; apply Fin.ext
  match c with
  | ⟨0, _⟩ => rfl
  | ⟨1, _⟩ => rfl

/-- A maximum-reduce along the columns, started from −∞, read at row i: the fold of max over that row. -/
private theorem reduceMax_row (S : (⟨S16384x512, .f32⟩ : BufTy).Contents (Elt Ideal)) (init : (⟨S_, .f32⟩ : BufTy).Contents (Elt Ideal))
    (hinit : init (Shape.Idx.first h_S_) = (⊥ : EReal)) (i : Fin 16384) :
    Host.reduce (FloatOps.maximumf (F := Ideal) (φ := .f32)) S init reducesTo_S16384x512_S16384_d1 h_S_ (ix1 i)
      = (Finset.univ : Finset (Fin 512)).fold max (⊥ : EReal) (fun j => S (ix2 i j)) := by
  have h : S16384x512.Reduces [1] S16384 := by decide
  refine (Host.reduce_eq_fold_single (FloatOps.maximumf (F := Ideal) (φ := .f32)) S init reducesTo_S16384x512_S16384_d1 h h_S_ (ix1 i)).trans ?_
  rw [hinit]
  have hf : (S ∘ h.lift (ix1 i)) = fun k : Fin 512 => S (ix2 i k) := funext fun k => congrArg S (lift_row h i k)
  exact congrArg (fun f => Finset.fold max (⊥ : EReal) f (Finset.univ : Finset (Fin 512))) hf

/-! ### The reference's read chain, stage by stage, at explicit coordinates -/

local macro "idx_ext2" : tactic =>
  `(tactic| exact funext fun a => Fin.ext (by match a with | ⟨0, _⟩ => rfl | ⟨1, _⟩ => rfl))
local macro "idx_ext1" : tactic =>
  `(tactic| exact funext fun a => Fin.ext (by match a with | ⟨0, _⟩ => rfl))

section chain

variable (x0 : (⟨S16384x360, .f32⟩ : BufTy).Contents (Elt Ideal)) (x1 : (⟨S512x512, .f32⟩ : BufTy).Contents (Elt Ideal)) (x2 : (⟨S360x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal))

/-- The score array at (i, j): the hidden row i against memory row j. -/
private theorem v16_read (i : Fin 16384) (j : Fin 512) :
    val_main_v16 (F := Ideal) x0 x1 x2 x3 x4 x5 x6 x7 (ix2 i j) = score (mat x1) (hrow x0 x2 x3 x4 x5 x6 x7 i) j := by
  rw [val_main_v16_apply]
  unfold score
  refine Finset.sum_congr rfl fun k _ => ?_
  rw [val_main_v15_apply]
  have e1 : lidx_main_v16 (ix2 i j) k = ix2 i k := by idx_ext2
  have e2 : idx_main_v15 (ridx_main_v16 (ix2 i j) k) = ix2 j k := by idx_ext2
  rw [e1, e2]

/-- The row maximum at row i. -/
private theorem v30_read (i : Fin 16384) :
    val_main_v30 (F := Ideal) x0 x1 x2 x3 x4 x5 x6 x7 (ix1 i) = rowMax (score (mat x1) (hrow x0 x2 x3 x4 x5 x6 x7 i)) := by
  rw [val_main_v30_apply, val_main_v29_apply, val_main_cst_3_apply]
  unfold val_main_v28
  rw [reduceMax_row (val_main_v16 (F := Ideal) x0 x1 x2 x3 x4 x5 x6 x7) (val_main_cst_2 (F := Ideal))
    ((val_main_cst_2_apply (F := Ideal) _).trans ofBits_ninf) i]
  rw [funext (v16_read x0 x1 x2 x3 x4 x5 x6 x7 i)]
  rw [Ideal.ofBits_def, ofBits_ninf]
  rfl

/-- The shifted exponential at (i, j). -/
private theorem v34_read (i : Fin 16384) (j : Fin 512) :
    val_main_v34 (F := Ideal) x0 x1 x2 x3 x4 x5 x6 x7 (ix2 i j)
      = Ideal.exp (score (mat x1) (hrow x0 x2 x3 x4 x5 x6 x7 i) j - rowMax (score (mat x1) (hrow x0 x2 x3 x4 x5 x6 x7 i))) := by
  rw [val_main_v34_apply, val_main_v33_apply, val_main_v32_apply, val_main_v31_apply]
  have e : idx_main_v31 (idx_main_v32 (ix2 i j)) = ix1 i := by idx_ext1
  rw [e, v30_read, v16_read]
  rfl

/-- The normaliser at row i: the sum of the shifted exponentials. -/
private theorem v35_read (i : Fin 16384) :
    val_main_v35 (F := Ideal) x0 x1 x2 x3 x4 x5 x6 x7 (ix1 i)
      = ∑ j : Fin 512, Ideal.exp (score (mat x1) (hrow x0 x2 x3 x4 x5 x6 x7 i) j - rowMax (score (mat x1) (hrow x0 x2 x3 x4 x5 x6 x7 i))) := by
  rw [val_main_v35_apply, val_main_cst_4_apply, Ideal.ofBits_def, Ideal.ofBits_zero_f32, zero_add]
  refine Finset.sum_congr rfl fun k _ => ?_
  have e : idx_main_v35 (ix1 i) k = ix2 i k := by idx_ext2
  rw [e, v34_read]

/-- The softmax weight at (i, j). -/
private theorem v38_read (i : Fin 16384) (j : Fin 512) :
    val_main_v38 (F := Ideal) x0 x1 x2 x3 x4 x5 x6 x7 (ix2 i j) = softmax (score (mat x1) (hrow x0 x2 x3 x4 x5 x6 x7 i)) j := by
  rw [val_main_v38_apply, val_main_v37_apply, val_main_v36_apply]
  have e : idx_main_v36 (idx_main_v37 (ix2 i j)) = ix1 i := by idx_ext1
  rw [e, v35_read, v34_read]
  rfl

end chain

/-! ### The negated-score chain is the same chain run on the memory times −1 -/

/-- The un-read branch's softmax weights are the read branch's, with (−1)·memory in place of the memory:
    the two chains are the same operations on the two score arrays. -/
private theorem v66_eq_v38 {F : FTy → Type} [FloatOps F]
    (x0 : (⟨S16384x360, .f32⟩ : BufTy).Contents (Elt F)) (x1 : (⟨S512x512, .f32⟩ : BufTy).Contents (Elt F)) (x2 : (⟨S360x512, .f32⟩ : BufTy).Contents (Elt F)) (x3 : (⟨S512, .f32⟩ : BufTy).Contents (Elt F)) (x4 : (⟨S512x512, .f32⟩ : BufTy).Contents (Elt F)) (x5 : (⟨S512, .f32⟩ : BufTy).Contents (Elt F)) (x6 : (⟨S512x512, .f32⟩ : BufTy).Contents (Elt F)) (x7 : (⟨S512, .f32⟩ : BufTy).Contents (Elt F)) :
    val_main_v66 (F := F) x0 x1 x2 x3 x4 x5 x6 x7 = val_main_v38 (F := F) x0 (val_main_v42 (F := F) x1) x2 x3 x4 x5 x6 x7 := rfl

section heads

variable (x0 : (⟨S16384x360, .f32⟩ : BufTy).Contents (Elt Ideal)) (x1 : (⟨S512x512, .f32⟩ : BufTy).Contents (Elt Ideal)) (x2 : (⟨S360x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal))

/-- Scoring against (−1)·memory is the negated-memory score. -/
private theorem score_neg (h : Fin 512 → EReal) :
    score (mat (val_main_v42 (F := Ideal) x1)) h = scoreNeg (mat x1) h := by
  funext j
  unfold score scoreNeg
  refine Finset.sum_congr rfl fun c _ => ?_
  show h c * val_main_v42 (F := Ideal) x1 (ix2 j c) = h c * ((-1 : EReal) * x1 (ix2 j c))
  rw [val_main_v42_apply, val_main_v41_apply, val_main_cst_5_apply, Ideal.ofBits_def, ofBits_negOne]
  rfl

/-- The un-read branch's softmax weight at (i, j). -/
private theorem v66_read (i : Fin 16384) (j : Fin 512) :
    val_main_v66 (F := Ideal) x0 x1 x2 x3 x4 x5 x6 x7 (ix2 i j) = softmax (scoreNeg (mat x1) (hrow x0 x2 x3 x4 x5 x6 x7 i)) j := by
  rw [v66_eq_v38, v38_read, score_neg]

end heads

/-! ### The three results -/

theorem v40_apply (x0 : (⟨S16384x360, .f32⟩ : BufTy).Contents (Elt Ideal)) (x1 : (⟨S512x512, .f32⟩ : BufTy).Contents (Elt Ideal)) (x2 : (⟨S360x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (i : Fin 16384) (c : Fin 512) :
    val_main_v40 (F := Ideal) x0 x1 x2 x3 x4 x5 x6 x7 (ix2 i c) = ppR (mat x1) (hrow x0 x2 x3 x4 x5 x6 x7 i) c := by
  rw [val_main_v40_apply, val_main_v39_apply, Ideal.mulf_def]
  unfold ppR
  refine congrArg (val_main_v14 (F := Ideal) x0 x2 x3 x4 x5 x6 x7 (ix2 i c) * ·) (Finset.sum_congr rfl fun k _ => ?_)
  have e1 : lidx_main_v39 (ix2 i c) k = ix2 i k := by idx_ext2
  have e2 : ridx_main_v39 (ix2 i c) k = ix2 k c := by idx_ext2
  rw [e1, e2, v38_read]

theorem v68_apply (x0 : (⟨S16384x360, .f32⟩ : BufTy).Contents (Elt Ideal)) (x1 : (⟨S512x512, .f32⟩ : BufTy).Contents (Elt Ideal)) (x2 : (⟨S360x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (i : Fin 16384) (c : Fin 512) :
    val_main_v68 (F := Ideal) x0 x1 x2 x3 x4 x5 x6 x7 (ix2 i c) = pnR (mat x1) (hrow x0 x2 x3 x4 x5 x6 x7 i) c := by
  rw [val_main_v68_apply, val_main_v67_apply, Ideal.mulf_def]
  unfold pnR
  refine congrArg (val_main_v14 (F := Ideal) x0 x2 x3 x4 x5 x6 x7 (ix2 i c) * ·) (Finset.sum_congr rfl fun k _ => ?_)
  have e1 : lidx_main_v67 (ix2 i c) k = ix2 i k := by idx_ext2
  have e2 : ridx_main_v67 (ix2 i c) k = ix2 k c := by idx_ext2
  rw [e1, e2, v66_read]

theorem v72_apply (x0 : (⟨S16384x360, .f32⟩ : BufTy).Contents (Elt Ideal)) (x2 : (⟨S360x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x1, .f32⟩ : BufTy).Contents (Elt Ideal)) (x9 : (⟨S1, .f32⟩ : BufTy).Contents (Elt Ideal)) (i : Fin 16384) :
    val_main_v72 (F := Ideal) x0 x2 x3 x4 x5 x6 x7 x8 x9 (ix2 i (0 : Fin 1))
      = predR (fun c => x8 (ix2 c (0 : Fin 1))) (x9 (ix1 (0 : Fin 1))) (hrow x0 x2 x3 x4 x5 x6 x7 i) := by
  rw [val_main_v72_apply, val_main_v69_apply, val_main_v71_apply, val_main_v70_apply, Ideal.addf_def]
  unfold predR
  have e0 : idx_main_v70 (idx_main_v71 (ix2 i (0 : Fin 1))) = ix1 (0 : Fin 1) := by idx_ext1
  rw [e0]
  refine congrArg (· + x9 (ix1 (0 : Fin 1))) (Finset.sum_congr rfl fun k _ => ?_)
  have e1 : lidx_main_v69 (ix2 i (0 : Fin 1)) k = ix2 i k := by idx_ext2
  have e2 : ridx_main_v69 (ix2 i (0 : Fin 1)) k = ix2 k (0 : Fin 1) := by idx_ext2
  rw [e1, e2]

end Cert.ReferenceIdeal.RVal

end
-- ==== Proof.Algebra.lean ====
/-
  The real algebra behind the two arrangements.

  Real numbers embedded in the extended reals are closed under finite sums of products, under adding a bias and under
  the maximum with zero, so three rectified dense layers of real data are real. For real scores s and any real M,
  e^{s j − M} / Σ_j' e^{s j' − M} = e^{s j} / Σ_j' e^{s j'} (the shift cancels), 1 / e^{s} = e^{−s}, and a common factor
  1 / Σ moves across a finite sum: so h · (1 / Σ_j w j) · Σ_j w j · K j c = h · Σ_j (w j / Σ_j' w j') · K j c for positive
  real weights w. The row maximum enters only through being a real number.
-/
import proofs.«138801_g72645076844940_cont_9to1_m_388_22_alg».proof.Proof.Spec
import Mathlib.Data.EReal.Operations
import Mathlib.Data.EReal.Inv
import Mathlib.Data.Finset.Fold
import Mathlib.Analysis.SpecialFunctions.Exp
import Mathlib.Algebra.BigOperators.Field

noncomputable section

namespace Cert.Spec

open Idealize.ShloMosaic

/-! ### A small calculus of real-valued extended reals -/

/-- A finite sum of coerced reals is the coercion of the real sum. -/
private theorem coe_sum {ι : Type} (s : Finset ι) (f : ι → ℝ) :
    ∑ k ∈ s, ((f k : ℝ) : EReal) = ((∑ k ∈ s, f k : ℝ) : EReal) := by
  classical
  induction s using Finset.induction_on with
  | empty => simp only [Finset.sum_empty, EReal.coe_zero]
  | insert a s ha ih => rw [Finset.sum_insert ha, Finset.sum_insert ha, ih, EReal.coe_add]

/-- The maximum of two coerced reals is the coercion of the real maximum. -/
private theorem coe_max (x y : ℝ) : max (x : EReal) (y : EReal) = ((max x y : ℝ) : EReal) :=
  (EReal.coe_strictMono.monotone.map_max).symm

private theorem isReal_coe (r : ℝ) : IsReal (r : EReal) := ⟨r, rfl⟩

/-- One dense layer with its rectifier keeps real rows real. -/
private theorem layer_isReal {n : Nat} {a : Fin n → EReal} {W : Fin n → Fin 512 → EReal} {b : Fin 512 → EReal}
    (ha : ∀ k, IsReal (a k)) (hW : ∀ k c, IsReal (W k c)) (hb : ∀ c, IsReal (b c)) (c : Fin 512) :
    IsReal (layer a W b c) := by
  choose ar har using ha
  choose Wr hWr using hW
  choose br hbr using hb
  refine ⟨max ((∑ k : Fin n, ar k * Wr k c) + br c) 0, ?_⟩
  have hsum : (∑ k : Fin n, a k * W k c) = ((∑ k : Fin n, ar k * Wr k c : ℝ) : EReal) := by
    rw [← coe_sum]
    refine Finset.sum_congr rfl fun k _ => ?_
    rw [har k, hWr k c, EReal.coe_mul]
  unfold layer
  rw [hsum, hbr c, ← EReal.coe_add, ← EReal.coe_zero, coe_max]

/-- Over real inputs the hidden row is real. -/
theorem hid_isReal {W0 : Fin 360 → Fin 512 → EReal} {b0 : Fin 512 → EReal} {W1 : Fin 512 → Fin 512 → EReal} {b1 : Fin 512 → EReal}
    {W2 : Fin 512 → Fin 512 → EReal} {b2 : Fin 512 → EReal} {xr : Fin 360 → EReal}
    (hW0 : ∀ k c, IsReal (W0 k c)) (hb0 : ∀ c, IsReal (b0 c)) (hW1 : ∀ k c, IsReal (W1 k c)) (hb1 : ∀ c, IsReal (b1 c))
    (hW2 : ∀ k c, IsReal (W2 k c)) (hb2 : ∀ c, IsReal (b2 c)) (hx : ∀ d, IsReal (xr d)) (c : Fin 512) :
    IsReal (hid W0 b0 W1 b1 W2 b2 xr c) :=
  layer_isReal (layer_isReal (layer_isReal hx hW0 hb0) hW1 hb1) hW2 hb2 c

/-! ### The two normalisations over the reals -/

/-- Shifting every score by one real M does not change a softmax weight. -/
private theorem softmax_shift {n : Nat} [NeZero n] (t : Fin n → ℝ) (M : ℝ) (j : Fin n) :
    Real.exp (t j - M) * (1 / ∑ j' : Fin n, Real.exp (t j' - M)) = Real.exp (t j) * (1 / ∑ j' : Fin n, Real.exp (t j')) := by
  have hM : Real.exp M ≠ 0 := (Real.exp_pos M).ne'
  have hS : (∑ j' : Fin n, Real.exp (t j')) ≠ 0 :=
    (Finset.sum_pos (fun i _ => Real.exp_pos (t i)) Finset.univ_nonempty).ne'
  have hsum : (∑ j' : Fin n, Real.exp (t j' - M)) = (∑ j' : Fin n, Real.exp (t j')) / Real.exp M := by
    rw [Finset.sum_div]
    exact Finset.sum_congr rfl fun k _ => Real.exp_sub (t k) M
  rw [hsum, Real.exp_sub]
  field_simp

/-- Multiplying the normaliser into h first, or into each weight: the same real number. -/
private theorem norm_first {n : Nat} (w Kc : Fin n → ℝ) (hc : ℝ) :
    (hc * (1 / ∑ j : Fin n, w j)) * ∑ j : Fin n, w j * Kc j
      = hc * ∑ j : Fin n, (w j * (1 / ∑ j' : Fin n, w j')) * Kc j := by
  rw [mul_assoc, Finset.mul_sum]
  refine congrArg (hc * ·) (Finset.sum_congr rfl fun j _ => ?_)
  ring

/-! ### The row maximum of real scores is real -/

private theorem rowMax_real (t : Fin 512 → ℝ) : ∃ M : ℝ, rowMax (fun j => ((t j : ℝ) : EReal)) = (M : EReal) := by
  have htop : rowMax (fun j => ((t j : ℝ) : EReal)) ≠ ⊤ := by
    refine ne_of_lt ?_
    unfold rowMax
    rw [max_bot_left, Finset.fold_max_lt]
    exact ⟨bot_lt_top, fun x _ => EReal.coe_lt_top (t x)⟩
  have hbot : rowMax (fun j => ((t j : ℝ) : EReal)) ≠ ⊥ := by
    refine ne_of_gt ?_
    unfold rowMax
    rw [max_bot_left, Finset.lt_fold_max]
    exact Or.inr ⟨0, Finset.mem_univ _, EReal.bot_lt_coe (t 0)⟩
  exact ⟨_, (EReal.coe_toReal htop hbot).symm⟩

/-! ### Each side as the coercion of a real expression -/

/-- 1 / y for a nonzero real y. -/
private theorem div_one_coe {y : ℝ} (hy : y ≠ 0) : Ideal.div 1 (y : EReal) = ((1 / y : ℝ) : EReal) := by
  rw [Ideal.div_coe hy, one_mul]

/-- The kernel's arrangement with real weights w of positive sum. -/
private theorem kernel_side (w Kc : Fin 512 → ℝ) (hc : ℝ) (hw : ∀ j, 0 < w j) :
    ((hc : EReal) * Ideal.div 1 (∑ j : Fin 512, ((w j : ℝ) : EReal))) * ∑ j : Fin 512, ((w j : ℝ) : EReal) * ((Kc j : ℝ) : EReal)
      = (((hc * (1 / ∑ j : Fin 512, w j)) * ∑ j : Fin 512, w j * Kc j : ℝ) : EReal) := by
  have hS : (∑ j : Fin 512, w j) ≠ 0 := (Finset.sum_pos (fun i _ => hw i) Finset.univ_nonempty).ne'
  have h2 : (∑ j : Fin 512, ((w j : ℝ) : EReal) * ((Kc j : ℝ) : EReal)) = ((∑ j : Fin 512, w j * Kc j : ℝ) : EReal) := by
    rw [← coe_sum]
    exact Finset.sum_congr rfl fun j _ => (EReal.coe_mul (w j) (Kc j)).symm
  rw [coe_sum, div_one_coe hS, h2, ← EReal.coe_mul, ← EReal.coe_mul]

/-- The reference's arrangement over real scores t. -/
private theorem reference_side (t Kc : Fin 512 → ℝ) (hc : ℝ) :
    (hc : EReal) * ∑ j : Fin 512, softmax (fun j => ((t j : ℝ) : EReal)) j * ((Kc j : ℝ) : EReal)
      = ((hc * ∑ j : Fin 512, (Real.exp (t j) * (1 / ∑ j' : Fin 512, Real.exp (t j'))) * Kc j : ℝ) : EReal) := by
  obtain ⟨M, hM⟩ := rowMax_real t
  have hS : (∑ j' : Fin 512, Real.exp (t j' - M)) ≠ 0 :=
    (Finset.sum_pos (fun i _ => Real.exp_pos (t i - M)) Finset.univ_nonempty).ne'
  have hden : (∑ j' : Fin 512, Ideal.exp (((t j' : ℝ) : EReal) - (M : EReal)))
      = ((∑ j' : Fin 512, Real.exp (t j' - M) : ℝ) : EReal) := by
    rw [← coe_sum]
    exact Finset.sum_congr rfl fun k _ => rfl
  have hsm : ∀ j : Fin 512, softmax (fun j => ((t j : ℝ) : EReal)) j
      = ((Real.exp (t j) * (1 / ∑ j' : Fin 512, Real.exp (t j')) : ℝ) : EReal) := by
    intro j
    unfold softmax
    rw [hM, hden, Ideal.div_coe hS, ← softmax_shift t M j, EReal.coe_mul]
    rfl
  have hsum : (∑ j : Fin 512, softmax (fun j => ((t j : ℝ) : EReal)) j * ((Kc j : ℝ) : EReal))
      = ((∑ j : Fin 512, (Real.exp (t j) * (1 / ∑ j' : Fin 512, Real.exp (t j'))) * Kc j : ℝ) : EReal) := by
    rw [← coe_sum]
    refine Finset.sum_congr rfl fun j _ => ?_
    rw [hsm j]
    exact (EReal.coe_mul _ (Kc j)).symm
  rw [hsum, ← EReal.coe_mul]

/-- The scores of a real hidden row against a real memory. -/
private theorem score_coe (Kr : Fin 512 → Fin 512 → ℝ) (hr : Fin 512 → ℝ) :
    score (fun j c => ((Kr j c : ℝ) : EReal)) (fun c => ((hr c : ℝ) : EReal))
      = fun j => ((∑ c : Fin 512, hr c * Kr j c : ℝ) : EReal) := by
  funext j
  unfold score
  rw [← coe_sum]
  exact Finset.sum_congr rfl fun c _ => (EReal.coe_mul (hr c) (Kr j c)).symm

/-- The scores against the negated memory are the negated scores. -/
private theorem scoreNeg_coe (Kr : Fin 512 → Fin 512 → ℝ) (hr : Fin 512 → ℝ) :
    scoreNeg (fun j c => ((Kr j c : ℝ) : EReal)) (fun c => ((hr c : ℝ) : EReal))
      = fun j => ((-(∑ c : Fin 512, hr c * Kr j c) : ℝ) : EReal) := by
  funext j
  unfold scoreNeg
  rw [← Finset.sum_neg_distrib, ← coe_sum]
  refine Finset.sum_congr rfl fun c _ => ?_
  rw [← EReal.coe_one, ← EReal.coe_neg, ← EReal.coe_mul, ← EReal.coe_mul]
  congr 1
  ring

/-- Over a real memory and a real hidden row the kernel's and the reference's read values agree. -/
theorem ppK_eq_ppR {K : Fin 512 → Fin 512 → EReal} {h : Fin 512 → EReal} (hK : ∀ j c, IsReal (K j c)) (hh : ∀ c, IsReal (h c))
    (c : Fin 512) : ppK K h c = ppR K h c := by
  choose Kr hKr using hK
  choose hr hhr using hh
  obtain rfl : K = fun j c => ((Kr j c : ℝ) : EReal) := funext fun j => funext fun c => hKr j c
  obtain rfl : h = fun c => ((hr c : ℝ) : EReal) := funext hhr
  unfold ppK ppR
  rw [score_coe Kr hr]
  refine (kernel_side (fun j => Real.exp (∑ c : Fin 512, hr c * Kr j c)) (fun j => Kr j c) (hr c)
    (fun j => Real.exp_pos _)).trans ?_
  refine Eq.trans ?_ (reference_side (fun j => ∑ c : Fin 512, hr c * Kr j c) (fun j => Kr j c) (hr c)).symm
  exact congrArg _ (norm_first _ _ _)

/-- … and the un-read values. -/
theorem pnK_eq_pnR {K : Fin 512 → Fin 512 → EReal} {h : Fin 512 → EReal} (hK : ∀ j c, IsReal (K j c)) (hh : ∀ c, IsReal (h c))
    (c : Fin 512) : pnK K h c = pnR K h c := by
  choose Kr hKr using hK
  choose hr hhr using hh
  obtain rfl : K = fun j c => ((Kr j c : ℝ) : EReal) := funext fun j => funext fun c => hKr j c
  obtain rfl : h = fun c => ((hr c : ℝ) : EReal) := funext hhr
  unfold pnK pnR
  rw [score_coe Kr hr, scoreNeg_coe Kr hr]
  have hw : ∀ j : Fin 512, Ideal.div 1 (Ideal.exp ((∑ c : Fin 512, hr c * Kr j c : ℝ) : EReal))
      = ((Real.exp (-(∑ c : Fin 512, hr c * Kr j c)) : ℝ) : EReal) := by
    intro j
    rw [Ideal.exp_coe, div_one_coe (Real.exp_pos _).ne', Real.exp_neg, one_div]
  simp only [hw]
  refine (kernel_side (fun j => Real.exp (-(∑ c : Fin 512, hr c * Kr j c))) (fun j => Kr j c) (hr c)
    (fun j => Real.exp_pos _)).trans ?_
  refine Eq.trans ?_ (reference_side (fun j => -(∑ c : Fin 512, hr c * Kr j c)) (fun j => Kr j c) (hr c)).symm
  exact congrArg _ (norm_first _ _ _)

/-- The prediction differs only in the order of each product's factors. -/
theorem predK_eq_predR (Wd : Fin 512 → EReal) (bd : EReal) (h : Fin 512 → EReal) : predK Wd bd h = predR Wd bd h := by
  unfold predK predR
  exact congrArg (· + bd) (Finset.sum_congr rfl fun c _ => mul_comm (Wd c) (h c))

end Cert.Spec

end
-- ==== Proof.Bridge.lean ====
/-
  The two programs' results are one function of the ten argument arrays.

  Over real arguments every hidden row is real, so the kernel's way of normalising the read and un-read weights
  (divide once by the row's sum of exponentials) and the reference's (subtract the row maximum, then divide every
  weight) give the same numbers; the prediction differs only in the order of each product's factors.
-/
import proofs.«138801_g72645076844940_cont_9to1_m_388_22_alg».proof.Proof.KernelArrays
import proofs.«138801_g72645076844940_cont_9to1_m_388_22_alg».proof.Proof.RefHid
import proofs.«138801_g72645076844940_cont_9to1_m_388_22_alg».proof.Proof.RefHeads
import proofs.«138801_g72645076844940_cont_9to1_m_388_22_alg».proof.Proof.Algebra

noncomputable section

open Idealize.ShloMosaic Idealize.ShloMosaic.TcCoe Idealize.SL.Sem Idealize.ShloMosaic.ValueIdx

namespace Cert.Bridge

open Cert.Spec

/-- A rank-2 array of extended reals. -/
abbrev A2 (a b : Nat) := (⟨2, ![a, b]⟩ : Shape).Idx → EReal
/-- A rank-1 array of extended reals. -/
abbrev A1 (a : Nat) := (⟨1, ![a]⟩ : Shape).Idx → EReal

section Functions

variable (x0 : A2 16384 360) (x1 : A2 512 512) (x2 : A2 360 512) (x3 : A1 512) (x4 : A2 512 512) (x5 : A1 512)
  (x6 : A2 512 512) (x7 : A1 512) (x8 : A2 512 1) (x9 : A1 1)

/-- The hidden row of input row i. -/
def hidOf (i : Fin 16384) : Fin 512 → EReal :=
  hid (mat x2) (vec x3) (mat x4) (vec x5) (mat x6) (vec x7) (fun d => x0 (ix2 i d))

/-- The read result, in the kernel's arrangement. -/
def R12 : A2 16384 512 := fun y => ppK (mat x1) (hidOf x0 x2 x3 x4 x5 x6 x7 (y 0)) (y 1)
/-- The un-read result, in the kernel's arrangement. -/
def R11 : A2 16384 512 := fun y => pnK (mat x1) (hidOf x0 x2 x3 x4 x5 x6 x7 (y 0)) (y 1)
/-- The prediction column, in the kernel's arrangement. -/
def R10 : A2 16384 1 := fun y => predK (fun q => x8 (ix2 q (0 : Fin 1))) (x9 (ix1 (0 : Fin 1))) (hidOf x0 x2 x3 x4 x5 x6 x7 (y 0))

variable {x0 x1 x2 x3 x4 x5 x6 x7 x8 x9}

theorem hidOf_isReal (h0 : ∀ i, IsReal (x0 i)) (h2 : ∀ i, IsReal (x2 i)) (h3 : ∀ i, IsReal (x3 i)) (h4 : ∀ i, IsReal (x4 i))
    (h5 : ∀ i, IsReal (x5 i)) (h6 : ∀ i, IsReal (x6 i)) (h7 : ∀ i, IsReal (x7 i)) (i : Fin 16384) (c : Fin 512) :
    IsReal (hidOf x0 x2 x3 x4 x5 x6 x7 i c) :=
  hid_isReal (fun _ _ => h2 _) (fun _ => h3 _) (fun _ _ => h4 _) (fun _ => h5 _) (fun _ _ => h6 _) (fun _ => h7 _)
    (fun _ => h0 _) c

/-- The reference's read result is the kernel's arrangement of it, over real arguments. -/
theorem ref40 (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i)) :
    Cert.ReferenceIdeal.Read.val_main_v40 (F := Ideal) x0 x1 x2 x3 x4 x5 x6 x7 = R12 x0 x1 x2 x3 x4 x5 x6 x7 := by
  refine funext fun (y : (⟨2, ![16384, 512]⟩ : Shape).Idx) => ?_
  obtain ⟨i, q, rfl⟩ : ∃ (i : Fin 16384) (q : Fin 512), y = ix2 i q := ⟨y 0, y 1, eq_ix2 y⟩
  refine (Cert.ReferenceIdeal.RVal.v40_apply x0 x1 x2 x3 x4 x5 x6 x7 i q).trans ?_
  have hh : Cert.ReferenceIdeal.RVal.hrow x0 x2 x3 x4 x5 x6 x7 i = hidOf x0 x2 x3 x4 x5 x6 x7 i :=
    funext fun c => Cert.ReferenceIdeal.RVal.v14_apply x0 x2 x3 x4 x5 x6 x7 i c
  rw [hh]
  exact (ppK_eq_ppR (fun _ _ => h1 _) (hidOf_isReal h0 h2 h3 h4 h5 h6 h7 i) q).symm

/-- … and its un-read result. -/
theorem ref68 (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i)) :
    Cert.ReferenceIdeal.Read.val_main_v68 (F := Ideal) x0 x1 x2 x3 x4 x5 x6 x7 = R11 x0 x1 x2 x3 x4 x5 x6 x7 := by
  refine funext fun (y : (⟨2, ![16384, 512]⟩ : Shape).Idx) => ?_
  obtain ⟨i, q, rfl⟩ : ∃ (i : Fin 16384) (q : Fin 512), y = ix2 i q := ⟨y 0, y 1, eq_ix2 y⟩
  refine (Cert.ReferenceIdeal.RVal.v68_apply x0 x1 x2 x3 x4 x5 x6 x7 i q).trans ?_
  have hh : Cert.ReferenceIdeal.RVal.hrow x0 x2 x3 x4 x5 x6 x7 i = hidOf x0 x2 x3 x4 x5 x6 x7 i :=
    funext fun c => Cert.ReferenceIdeal.RVal.v14_apply x0 x2 x3 x4 x5 x6 x7 i c
  rw [hh]
  exact (pnK_eq_pnR (fun _ _ => h1 _) (hidOf_isReal h0 h2 h3 h4 h5 h6 h7 i) q).symm

/-- The reference's prediction is the kernel's, whatever the arguments. -/
theorem ref72 : Cert.ReferenceIdeal.Read.val_main_v72 (F := Ideal) x0 x2 x3 x4 x5 x6 x7 x8 x9 = R10 x0 x2 x3 x4 x5 x6 x7 x8 x9 := by
  refine funext fun (y : (⟨2, ![16384, 1]⟩ : Shape).Idx) => ?_
  obtain ⟨i, u, rfl⟩ : ∃ (i : Fin 16384) (u : Fin 1), y = ix2 i u := ⟨y 0, y 1, eq_ix2 y⟩
  obtain rfl : u = 0 := Subsingleton.elim _ _
  refine (Cert.ReferenceIdeal.RVal.v72_apply x0 x2 x3 x4 x5 x6 x7 x8 x9 i).trans ?_
  have hh : Cert.ReferenceIdeal.RVal.hrow x0 x2 x3 x4 x5 x6 x7 i = hidOf x0 x2 x3 x4 x5 x6 x7 i :=
    funext fun c => Cert.ReferenceIdeal.RVal.v14_apply x0 x2 x3 x4 x5 x6 x7 i c
  rw [hh]
  exact (predK_eq_predR _ _ _).symm

end Functions

/-! ## The kernel's arrays are those functions of its arguments -/

section Kernel

open Cert.KernelIdeal Cert.KernelIdeal.Gen Cert.KernelIdeal.KArr

variable (m : (ℓ : Loc nD τ sig) → Buf (Elt Ideal) ℓ)

theorem ker12 (c : Dev nD) : GA12 m c = R12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine funext fun (y : (⟨2, ![16384, 512]⟩ : Shape).Idx) => ?_
  obtain ⟨i, q, rfl⟩ : ∃ (i : Fin 16384) (q : Fin 512), y = ix2 i q := ⟨y 0, y 1, eq_ix2 y⟩
  show ppK (aK m c) (hrowA m c i) q = ppK _ (hidOf _ _ _ _ _ _ _ i) q
  rw [aK_eq, hrowA_eq]
  rfl

theorem ker11 (c : Dev nD) : GA11 m c = R11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine funext fun (y : (⟨2, ![16384, 512]⟩ : Shape).Idx) => ?_
  obtain ⟨i, q, rfl⟩ : ∃ (i : Fin 16384) (q : Fin 512), y = ix2 i q := ⟨y 0, y 1, eq_ix2 y⟩
  show pnK (aK m c) (hrowA m c i) q = pnK _ (hidOf _ _ _ _ _ _ _ i) q
  rw [aK_eq, hrowA_eq]
  rfl

/-- The prediction row transposed is the prediction column. -/
theorem ker10 (c : Dev nD) :
    transpose S16384x1 [1, 0] (GA10 m c) transposes_S1x16384_S16384x1_1_0
      = R10 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine funext fun (y : (⟨2, ![16384, 1]⟩ : Shape).Idx) => ?_
  obtain ⟨i, u, rfl⟩ : ∃ (i : Fin 16384) (u : Fin 1), y = ix2 i u := ⟨y 0, y 1, eq_ix2 y⟩
  obtain rfl : u = 0 := Subsingleton.elim _ _
  refine (transpose_ix2_apply (GA10 m c) transposes_S1x16384_S16384x1_1_0 i (0 : Fin 1)).trans ?_
  show predK (aWdT m c) (abd m c) (hrowA m c i) = predK _ _ (hidOf _ _ _ _ _ _ _ i)
  have e8 : aWdT m c = fun q => (m ((c : Thread nD τ).loc main_arg8) : S512x1.Idx → EReal) (ix2 q (0 : Fin 1)) :=
    funext fun q => aWdT_eq m c q
  rw [e8, abd_eq, hrowA_eq]
  rfl

end Kernel

end Cert.Bridge

end
-- ==== Proof.Finite.lean ====
/-
  The precondition read: every input array holds real numbers only.

  The printed predicate takes, per input, the absolute value of every entry, compares it below +∞, and conjoins
  all the comparisons; that it is all ones says every entry of every input is neither +∞ nor −∞.
-/
import proofs.«138801_g72645076844940_cont_9to1_m_388_22_alg».proof.Pre_finite_inputs
import proofs.«138801_g72645076844940_cont_9to1_m_388_22_alg».proof.Proof.Spec
import Idealize.ShloMosaic.Lib.ReduceAll
import Idealize.ShloMosaic.Lib.ValueIdx
import Idealize.ShloMosaic.PureOps.Ideal.Laws

noncomputable section

namespace Cert.Pre_finite_inputs.Fin

open Idealize.ShloMosaic Idealize.ShloMosaic.ValueIdx Cert.Pre_finite_inputs Cert.Spec

variable [Cert.Pre_finite_inputs.Facts]

/-- The result shape of a reduction over every axis has one index. -/
private instance : Subsingleton S_.Idx := ⟨fun a b => funext fun d => d.elim0⟩

private theorem ofBool_eq_one {b : Bool} : BitVec.ofBool b = 1#1 ↔ b = true := by cases b <;> decide

/-- The word 0x7F800000 is +∞. -/
private theorem ofBits_inf : Ideal.ofBits .f32 0x7F800000#32 = (⊤ : EReal) := by
  simp [Ideal.ofBits, Ideal.ieee]

/-- An extended real whose absolute value lies below +∞ is a real number. -/
private theorem isReal_of_abs_lt_top (x : EReal) (h : max x (-x) < ⊤) : IsReal x := by
  induction x using EReal.rec with
  | bot => exact absurd h (by simp)
  | coe r => exact ⟨r, rfl⟩
  | top => exact absurd h (by simp)

/-- One conjunct of the predicate: all entries have absolute value below +∞, so all entries are real. -/
private theorem all_finite {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi (cmpf .olt (Host.absf x) (broadcastInDim s ![] hb (constant (F := Ideal) S_ .f32 0x7F800000#32)))
      (constantI S_ 1 1#1) hr hu ix0 = 1#1)
    (i : s.Idx) : IsReal (x i) := by
  have h1 := Host.reduce_andi_all _ _ hr hu ix0 e i
  have htop : broadcastInDim s ![] hb (constant (F := Ideal) S_ .f32 0x7F800000#32) i = (⊤ : EReal) := by
    unfold broadcastInDim
    rw [constant_apply, ofBits_inf]
  have h2 : Ideal.cmp .olt (max (x i) (-(x i)))
      (broadcastInDim s ![] hb (constant (F := Ideal) S_ .f32 0x7F800000#32) i) = 1#1 := h1
  rw [htop] at h2
  simp only [Ideal.cmp, ofBool_eq_one, decide_eq_true_eq] at h2
  exact isReal_of_abs_lt_top (x i) h2

/-- A conjunction of two one-bit scalars that is 1 has both conjuncts 1. -/
private theorem andi_split {a b : IVec S_ 1} (h : andi a b ix0 = 1#1) : a ix0 = 1#1 ∧ b ix0 = 1#1 :=
  IntOp.andi_eq_one.1 h

/-- Where the finiteness predicate holds, every entry of every input is a real number. -/
theorem real_of_pre (x0 : FVec Ideal S16384x360 .f32) (x1 : FVec Ideal S512x512 .f32) (x2 : FVec Ideal S360x512 .f32)
    (x3 : FVec Ideal S512 .f32) (x4 : FVec Ideal S512x512 .f32) (x5 : FVec Ideal S512 .f32) (x6 : FVec Ideal S512x512 .f32)
    (x7 : FVec Ideal S512 .f32) (x8 : FVec Ideal S512x1 .f32) (x9 : FVec Ideal S1 .f32)
    (h : Cert.Pre_finite_inputs.fn (F := Ideal) x0 x1 x2 x3 x4 x5 x6 x7 x8 x9 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) ∧ (∀ i, IsReal (x9 i)) := by
  have h0 := congrFun h ix0
  dsimp only [fn, fn_part1, fn_part2] at h0
  obtain ⟨h0, r9⟩ := andi_split h0
  obtain ⟨h0, r8⟩ := andi_split h0
  obtain ⟨h0, r7⟩ := andi_split h0
  obtain ⟨h0, r6⟩ := andi_split h0
  obtain ⟨h0, r5⟩ := andi_split h0
  obtain ⟨h0, r4⟩ := andi_split h0
  obtain ⟨h0, r3⟩ := andi_split h0
  obtain ⟨h0, r2⟩ := andi_split h0
  obtain ⟨r0, r1⟩ := andi_split h0
  exact ⟨all_finite _ _ _ x0 r0, all_finite _ _ _ x1 r1, all_finite _ _ _ x2 r2, all_finite _ _ _ x3 r3,
    all_finite _ _ _ x4 r4, all_finite _ _ _ x5 r5, all_finite _ _ _ x6 r6, all_finite _ _ _ x7 r7,
    all_finite _ _ _ x8 r8, all_finite _ _ _ x9 r9⟩

end Cert.Pre_finite_inputs.Fin

end
-- ==== Proof.lean ====
/-
  A three-layer perceptron followed by a memory read, a memory un-read and a linear prediction, fused into one
  kernel over sixteen blocks of 1024 input rows, against its array-at-a-time reference.

  Per input row the kernel and the reference compute the same hidden row h (three dense layers, each rectified),
  the same scores s j = Σ_c h c · K j c against the 512 memory rows, and then
    • the read value      h c · Σ_j softmax(s) j · K j c,
    • the un-read value   h c · Σ_j softmax(−s) j · K j c,
    • the prediction      Σ_c h c · Wd c + bd.
  The kernel exponentiates the scores as they are, takes reciprocals for the negated scores, and multiplies the
  reciprocal of each row's sum into h before the product with Σ_j w j · K j c; the reference subtracts the row's
  maximum first and divides every weight by the row's sum. Over finite inputs all of these are real numbers, the
  shift by the maximum cancels (e^{s − M} / Σ e^{s' − M} = e^{s} / Σ e^{s'}), 1 / e^{s} = e^{−s}, and the common
  factor moves across the finite sum: the two programs end with equal results, entry by entry.

  The kernel's three result arrays are read off its frame run block by block (each block is one function of its
  index, and the sixteen blocks tile each array); the reference's results are its run read one operation at a time.
-/
import proofs.«138801_g72645076844940_cont_9to1_m_388_22_alg».proof.Defs
import proofs.«138801_g72645076844940_cont_9to1_m_388_22_alg».proof.Proof.Gen.Kernel
import proofs.«138801_g72645076844940_cont_9to1_m_388_22_alg».proof.Proof.Gen.Kernel.Skeleton
import proofs.«138801_g72645076844940_cont_9to1_m_388_22_alg».proof.Proof.Gen.Kernel.Launch
import proofs.«138801_g72645076844940_cont_9to1_m_388_22_alg».proof.Proof.Gen.Kernel.Points
import proofs.«138801_g72645076844940_cont_9to1_m_388_22_alg».proof.Proof.Gen.Kernel.Frame
import proofs.«138801_g72645076844940_cont_9to1_m_388_22_alg».proof.Proof.Gen.KernelIdeal
import proofs.«138801_g72645076844940_cont_9to1_m_388_22_alg».proof.Proof.Gen.KernelIdeal.Skeleton
import proofs.«138801_g72645076844940_cont_9to1_m_388_22_alg».proof.Proof.Gen.KernelIdeal.Launch
import proofs.«138801_g72645076844940_cont_9to1_m_388_22_alg».proof.Proof.Gen.KernelIdeal.Points
import proofs.«138801_g72645076844940_cont_9to1_m_388_22_alg».proof.Proof.Gen.KernelIdeal.Frame
import proofs.«138801_g72645076844940_cont_9to1_m_388_22_alg».proof.Proof.Gen.ReferenceIdeal
import proofs.«138801_g72645076844940_cont_9to1_m_388_22_alg».proof.Proof.Gen.ReferenceIdeal.Run
import proofs.«138801_g72645076844940_cont_9to1_m_388_22_alg».proof.Proof.Gen.ReferenceIdeal.Read
import proofs.«138801_g72645076844940_cont_9to1_m_388_22_alg».proof.Proof.Gen.Pre_finite_inputs
import proofs.«138801_g72645076844940_cont_9to1_m_388_22_alg».proof.Proof.Bridge
import proofs.«138801_g72645076844940_cont_9to1_m_388_22_alg».proof.Proof.Finite
import Idealize.ShloMosaic.Adequacy
import Idealize.ShloMosaic.Init

noncomputable section

namespace Cert.Proof

open Idealize.ShloMosaic Idealize.SL.Sem Idealize.ShloMosaic.TcCoe

/-- The kernel as printed terminates without a fault and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, with its results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Nothing was rewritten when the kernel was idealized. -/
theorem preserves : Cert.preserves_Kernel_KernelIdeal := trivial

/-- From memories that agree on the ten finite arguments both programs end with the same prediction column, the same
    un-read result, the same read result and the memory unchanged. -/
theorem algebraic : Cert.algebraic_KernelIdeal_ReferenceIdeal := by
  intro m ρ m' ρ' hpre hagree
  refine ⟨_, _, _, _, Cert.KernelIdeal.KArr.run m ρ, ?_⟩
  refine (θ_run Cert.ReferenceIdeal.defs _ _).mono (fun _ h c => ?_) (Cert.ReferenceIdeal.Value.run (F := Ideal) m' ρ')
  obtain ⟨r0, r1, r2, r3, r4, r5, r6, r7, r8, r9⟩ := Cert.Pre_finite_inputs.Fin.real_of_pre _ _ _ _ _ _ _ _ _ _ (hpre c)
  obtain ⟨a0, a1, a2, a3, a4, a5, a6, a7, a8, a9⟩ := hagree c
  refine ⟨(h c).1.trans ?_, (h c).2.1.trans ?_, (h c).2.2.1.trans ?_, (h c).2.2.2.1.trans a1, (h c).2.2.2.2⟩
  · -- the prediction
    refine (Cert.ReferenceIdeal.Read.val_main_v72_eq (F := Ideal) _ _ _ _ _ _ _ _ _).trans ?_
    rw [a0, a2, a3, a4, a5, a6, a7, a8, a9]
    exact Cert.Bridge.ref72.trans (Cert.Bridge.ker10 m c).symm
  · -- the un-read result
    rw [Cert.ReferenceIdeal.Read.val_main_v68_eq, a0, a1, a2, a3, a4, a5, a6, a7]
    exact (Cert.Bridge.ref68 r0 r1 r2 r3 r4 r5 r6 r7).trans (Cert.Bridge.ker11 m c).symm
  · -- the read result
    rw [Cert.ReferenceIdeal.Read.val_main_v40_eq, a0, a1, a2, a3, a4, a5, a6, a7]
    exact (Cert.Bridge.ref40 r0 r1 r2 r3 r4 r5 r6 r7).trans (Cert.Bridge.ker12 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
